-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S150000x64 : Shape := ⟨2, ![150000, 64]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel

variable [Facts]

def fn {F : FTy → Type} [FloatOps F] (main_arg0 : IVec S2x1000000 32) (main_arg1 : FVec F S150000x64 .f32) : IVec S_ 1 :=
  let main_v0 : FVec F S150000x64 .f32 := Host.absf main_arg1
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  main_v3
-- ==== Kernel.lean ====
abbrev S2x1000000 : Shape := ⟨2, ![2, 1000000]⟩
abbrev S150000x64 : Shape := ⟨2, ![150000, 64]⟩
abbrev S1x1000000 : Shape := ⟨2, ![1, 1000000]⟩
abbrev S1000000 : Shape := ⟨1, ![1000000]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S2015232 : Shape := ⟨1, ![2015232]⟩
abbrev S2015232x1 : Shape := ⟨2, ![2015232, 1]⟩
abbrev S2015232x64 : Shape := ⟨2, ![2015232, 64]⟩
abbrev S16384x64 : Shape := ⟨2, ![16384, 64]⟩
abbrev S16384x1 : Shape := ⟨2, ![16384, 1]⟩
abbrev S2000000x64 : Shape := ⟨2, ![2000000, 64]⟩
abbrev S155648x64 : Shape := ⟨2, ![155648, 64]⟩
abbrev S8192x64 : Shape := ⟨2, ![8192, 64]⟩
abbrev S100000x64 : Shape := ⟨2, ![100000, 64]⟩
abbrev S50000x64 : Shape := ⟨2, ![50000, 64]⟩

abbrev nBuf : Space → Nat
  | .hbm => 115
  | .vmem => 28
  | .smem => 0
  | _ => 0

abbrev bufTy : (tb : Table) → Fin (tcTables nBuf tb) → BufTy
  | .hbm, ⟨0, _⟩ => ⟨S2x1000000, .i32⟩
  | .hbm, ⟨1, _⟩ => ⟨S150000x64, .f32⟩
  | .hbm, ⟨2, _⟩ => ⟨S1x1000000, .i32⟩
  | .hbm, ⟨3, _⟩ => ⟨S1000000, .i32⟩
  | .hbm, ⟨4, _⟩ => ⟨S1x1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S2000000, .i32⟩
  | .hbm, ⟨10, _⟩ => ⟨S2000000, .i32⟩
  | .hbm, ⟨11, _⟩ => ⟨S_, .f32⟩
  | .hbm, ⟨12, _⟩ => ⟨S2000000, .f32⟩
  | .hbm, ⟨13, _⟩ => ⟨S_, .f32⟩
  | .hbm, ⟨14, _⟩ => ⟨S150000, .f32⟩
  | .hbm, ⟨15, _⟩ => ⟨S2000000x1, .i32⟩
  | .hbm, ⟨16, _⟩ => ⟨S150000, .f32⟩
  | .hbm, ⟨17, _⟩ => ⟨S_, .f32⟩
  | .hbm, ⟨18, _⟩ => ⟨S150000, .f32⟩
  | .hbm, ⟨19, _⟩ => ⟨S150000, .i1⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S150000, .f32⟩
  | .hbm, ⟨24, _⟩ => ⟨S_, .f32⟩
  | .hbm, ⟨25, _⟩ => ⟨S_, .f32⟩
  | .hbm, ⟨26, _⟩ => ⟨S150000, .f32⟩
  | .hbm, ⟨27, _⟩ => ⟨S150000, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000, .f32⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S2000000, .f32⟩
  | .hbm, ⟨46, _⟩ => ⟨S2000000, .f32⟩
  | .hbm, ⟨47, _⟩ => ⟨S_, .i32⟩
  | .hbm, ⟨48, _⟩ => ⟨S_, .f32⟩
  | .hbm, ⟨49, _⟩ => ⟨S2015232, .f32⟩
  | .hbm, ⟨50, _⟩ => ⟨S_, .i32⟩
  | .hbm, ⟨51, _⟩ => ⟨S_, .i32⟩
  | .hbm, ⟨52, _⟩ => ⟨S2015232, .i32⟩
  | .hbm, ⟨53, _⟩ => ⟨S2015232x1, .f32⟩
  | .hbm, ⟨54, _⟩ => ⟨S_, .i32⟩
  | .hbm, ⟨55, _⟩ => ⟨S2015232, .i32⟩
  | .hbm, ⟨56, _⟩ => ⟨S2015232, .i1⟩
  | .hbm, ⟨57, _⟩ => ⟨S_, .i32⟩
  | .hbm, ⟨58, _⟩ => ⟨S2015232, .i32⟩
  | .hbm, ⟨59, _⟩ => ⟨S2015232, .i32⟩
  | .hbm, ⟨60, _⟩ => ⟨S2015232, .i32⟩
  | .hbm, ⟨61, _⟩ => ⟨S2015232x1, .i32⟩
  | .hbm, ⟨62, _⟩ => ⟨S2015232x64, .f32⟩
  | .hbm, ⟨63, _⟩ => ⟨S2015232x64, .f32⟩
  | .hbm, ⟨64, _⟩ => ⟨S2000000x64, .f32⟩
  | .hbm, ⟨65, _⟩ => ⟨S_, .f32⟩
  | .hbm, ⟨66, _⟩ => ⟨S150000x64, .f32⟩
  | .hbm, ⟨67, _⟩ => ⟨S2000000x1, .i32⟩
  | .hbm, ⟨68, _⟩ => ⟨S150000x64, .f32⟩
  | .hbm, ⟨69, _⟩ => ⟨S_, .i32⟩
  | .hbm, ⟨70, _⟩ => ⟨S2015232, .i32⟩
  | .hbm, ⟨71, _⟩ => ⟨S2015232, .i1⟩
  | .hbm, ⟨72, _⟩ => ⟨S_, .i32⟩
  | .hbm, ⟨73, _⟩ => ⟨S2015232, .i32⟩
  | .hbm, ⟨74, _⟩ => ⟨S2015232, .i32⟩
  | .hbm, ⟨75, _⟩ => ⟨S2015232, .i32⟩
  | .hbm, ⟨76, _⟩ => ⟨S2015232x1, .i32⟩
  | .hbm, ⟨77, _⟩ => ⟨S2015232x64, .f32⟩
  | .hbm, ⟨78, _⟩ => ⟨S2015232x64, .f32⟩
  | .hbm, ⟨79, _⟩ => ⟨S2000000x64, .f32⟩
  | .hbm, ⟨80, _⟩ => ⟨S_, .f32⟩
  | .hbm, ⟨81, _⟩ => ⟨S150000x64, .f32⟩
  | .hbm, ⟨82, _⟩ => ⟨S2000000x1, .i32⟩
  | .hbm, ⟨83, _⟩ => ⟨S150000x64, .f32⟩
  | .hbm, ⟨84, _⟩ => ⟨S_, .i32⟩
  | .hbm, ⟨85, _⟩ => ⟨S2015232, .i32⟩
  | .hbm, ⟨86, _⟩ => ⟨S2015232, .i1⟩
  | .hbm, ⟨87, _⟩ => ⟨S_, .i32⟩
  | .hbm, ⟨88, _⟩ => ⟨S2015232, .i32⟩
  | .hbm, ⟨89, _⟩ => ⟨S2015232, .i32⟩
  | .hbm, ⟨90, _⟩ => ⟨S2015232, .i32⟩
  | .hbm, ⟨91, _⟩ => ⟨S2015232x1, .i32⟩
  | .hbm, ⟨92, _⟩ => ⟨S2015232x64, .f32⟩
  | .hbm, ⟨93, _⟩ => ⟨S2015232x64, .f32⟩
  | .hbm, ⟨94, _⟩ => ⟨S2000000x64, .f32⟩
  | .hbm, ⟨95, _⟩ => ⟨S_, .f32⟩
  | .hbm, ⟨96, _⟩ => ⟨S150000x64, .f32⟩
  | .hbm, ⟨97, _⟩ => ⟨S2000000x1, .i32⟩
  | .hbm, ⟨98, _⟩ => ⟨S150000x64, .f32⟩
  | .hbm, ⟨99, _⟩ => ⟨S_, .i32⟩
  | .hbm, ⟨100, _⟩ => ⟨S_, .f32⟩
  | .hbm, ⟨101, _⟩ => ⟨S155648x64, .f32⟩
  | .hbm, ⟨102, _⟩ => ⟨S_, .i32⟩
  | .hbm, ⟨103, _⟩ => ⟨S_, .f32⟩
  | .hbm, ⟨104, _⟩ => ⟨S155648x64, .f32⟩
  | .hbm, ⟨105, _⟩ => ⟨S_, .i32⟩
  | .hbm, ⟨106, _⟩ => ⟨S_, .f32⟩
  | .hbm, ⟨107, _⟩ => ⟨S155648x64, .f32⟩
  | .hbm, ⟨108, _⟩ => ⟨S_, .i32⟩
  | .hbm, ⟨109, _⟩ => ⟨S_, .f32⟩
  | .hbm, ⟨110, _⟩ => ⟨S155648x64, .f32⟩
  | .hbm, ⟨111, _⟩ => ⟨S155648x64, .f32⟩
  | .hbm, ⟨112, _⟩ => ⟨S150000x64, .f32⟩
  | .hbm, ⟨113, _⟩ => ⟨S100000x64, .f32⟩
  | .hbm, ⟨114, _⟩ => ⟨S50000x64, .f32⟩
  | .local _ .vmem, ⟨0, _⟩ => ⟨S16384x64, .f32⟩
  | .local _ .vmem, ⟨1, _⟩ => ⟨S16384x64, .f32⟩
  | .local _ .vmem, ⟨2, _⟩ => ⟨S16384x1, .f32⟩
  | .local _ .vmem, ⟨3, _⟩ => ⟨S16384x1, .f32⟩
  | .local _ .vmem, ⟨4, _⟩ => ⟨S16384x64, .f32⟩
  | .local _ .vmem, ⟨5, _⟩ => ⟨S16384x64, .f32⟩
  | .local _ .vmem, ⟨6, _⟩ => ⟨S16384x64, .f32⟩
  | .local _ .vmem, ⟨7, _⟩ => ⟨S16384x64, .f32⟩
  | .local _ .vmem, ⟨8, _⟩ => ⟨S16384x1, .f32⟩
  | .local _ .vmem, ⟨9, _⟩ => ⟨S16384x1, .f32⟩
  | .local _ .vmem, ⟨10, _⟩ => ⟨S16384x64, .f32⟩
  | .local _ .vmem, ⟨11, _⟩ => ⟨S16384x64, .f32⟩
  | .local _ .vmem, ⟨12, _⟩ => ⟨S16384x64, .f32⟩
  | .local _ .vmem, ⟨13, _⟩ => ⟨S16384x64, .f32⟩
  | .local _ .vmem, ⟨14, _⟩ => ⟨S16384x1, .f32⟩
  | .local _ .vmem, ⟨15, _⟩ => ⟨S16384x1, .f32⟩
  | .local _ .vmem, ⟨16, _⟩ => ⟨S16384x64, .f32⟩
  | .local _ .vmem, ⟨17, _⟩ => ⟨S16384x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | .local _ .vmem, ⟨24, _⟩ => ⟨S8192x64, .f32⟩
  | .local _ .vmem, ⟨25, _⟩ => ⟨S8192x64, .f32⟩
  | .local _ .vmem, ⟨26, _⟩ => ⟨S8192x64, .f32⟩
  | .local _ .vmem, ⟨27, _⟩ => ⟨S8192x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_call1_v0 : Ref sig .tc := ⟨.hbm, 48, rfl⟩
abbrev main_v33 : Ref sig .tc := ⟨.hbm, 49, rfl⟩
abbrev main_c_9 : Ref sig .tc := ⟨.hbm, 50, rfl⟩
abbrev main_call2_v0 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_c_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_c_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_16 : Ref sig .tc := ⟨.hbm, 84, rfl⟩
abbrev main_v60 : Ref sig .tc := ⟨.hbm, 85, rfl⟩
abbrev main_v61 : Ref sig .tc := ⟨.hbm, 86, rfl⟩
abbrev main_c_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_19 : Ref sig .tc := ⟨.hbm, 99, rfl⟩
abbrev main_call3_v0 : Ref sig .tc := ⟨.hbm, 100, rfl⟩
abbrev main_v72 : Ref sig .tc := ⟨.hbm, 101, rfl⟩
abbrev main_c_20 : Ref sig .tc := ⟨.hbm, 102, rfl⟩
abbrev main_call4_v0 : Ref sig .tc := ⟨.hbm, 103, rfl⟩
abbrev main_v73 : Ref sig .tc := ⟨.hbm, 104, rfl⟩
abbrev main_c_21 : Ref sig .tc := ⟨.hbm, 105, rfl⟩
abbrev main_call5_v0 : Ref sig .tc := ⟨.hbm, 106, rfl⟩
abbrev main_v74 : Ref sig .tc := ⟨.hbm, 107, rfl⟩
abbrev main_c_22 : Ref sig .tc := ⟨.hbm, 108, rfl⟩
abbrev main_call6_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![19], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8192x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8192x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  pads_S2000000_S2015232_0152320 : S2000000.Pads (![0] : Fin 1 → Nat) ![15232] ![0] S2015232
  h_S_ : 0 < S_.numel
  shapeCasts_S2015232_S2015232x1 : S2015232.ShapeCasts S2015232x1
  bcast_S_S2015232 : S_.BroadcastsInDim S2015232 (![] : Fin 0 → Fin S2015232.rank)
  bcast_S2015232_S2015232x1_0 : S2015232.BroadcastsInDim S2015232x1 (![0] : Fin 1 → Fin S2015232x1.rank)
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  broadcasts_S16384x1_S16384x64 : S16384x1.Broadcasts S16384x64
  slices_S2015232x64_S2000000x64_0_0 : S2015232x64.Slices ![0, 0] S2000000x64
  bcast_S_S150000x64 : S_.BroadcastsInDim S150000x64 (![] : Fin 0 → Fin S150000x64.rank)
  pads_S150000x64_S155648x64_056480_000 : S150000x64.Pads (![0, 0] : Fin 2 → Nat) ![5648, 0] ![0, 0] S155648x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  slices_S155648x64_S150000x64_0_0 : S155648x64.Slices ![0, 0] S150000x64
  slices_S150000x64_S100000x64_0_0 : S150000x64.Slices ![0, 0] S100000x64
  slices_S150000x64_S50000x64_100000_0 : S150000x64.Slices ![100000, 0] S50000x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2015232x1_S2015232x64_1_0_n_n_0_1_164_wf : GatherDims.WF S150000x64 S2015232x1 S2015232x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S2015232x64.size a
  hwx0_0 : ∀ i : grid0.Coords, EltTy.bits .f32 = 32 ∨ (Rect.block (s := S2015232x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S2015232x1.size a
  hwx0_1 : ∀ i : grid0.Coords, EltTy.bits .f32 = 32 ∨ (Rect.block (s := S2015232x1) S16384x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S2015232x64.size a
  hwx0_2 : ∀ i : grid0.Coords, EltTy.bits .f32 = 32 ∨ (Rect.block (s := S2015232x64) S16384x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S2015232x64.size a
  hwx1_0 : ∀ i : grid1.Coords, EltTy.bits .f32 = 32 ∨ (Rect.block (s := S2015232x64) S16384x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x1.size a ≤ S2015232x1.size a
  hwx1_1 : ∀ i : grid1.Coords, EltTy.bits .f32 = 32 ∨ (Rect.block (s := S2015232x1) S16384x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384x64.size a ≤ S2015232x64.size a
  hwx1_2 : ∀ i : grid1.Coords, EltTy.bits .f32 = 32 ∨ (Rect.block (s := S2015232x64) S16384x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x64.size a ≤ S2015232x64.size a
  hwx2_0 : ∀ i : grid2.Coords, EltTy.bits .f32 = 32 ∨ (Rect.block (s := S2015232x64) S16384x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x1.size a ≤ S2015232x1.size a
  hwx2_1 : ∀ i : grid2.Coords, EltTy.bits .f32 = 32 ∨ (Rect.block (s := S2015232x1) S16384x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384x64.size a ≤ S2015232x64.size a
  hwx2_2 : ∀ i : grid2.Coords, EltTy.bits .f32 = 32 ∨ (Rect.block (s := S2015232x64) S16384x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S155648x64.size a
  hwx3_0 : ∀ i : grid3.Coords, EltTy.bits .f32 = 32 ∨ (Rect.block (s := S155648x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S155648x64.size a
  hwx3_1 : ∀ i : grid3.Coords, EltTy.bits .f32 = 32 ∨ (Rect.block (s := S155648x64) S8192x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S155648x64.size a
  hwx3_2 : ∀ i : grid3.Coords, EltTy.bits .f32 = 32 ∨ (Rect.block (s := S155648x64) S8192x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x64.size a ≤ S155648x64.size a
  hwx3_3 : ∀ i : grid3.Coords, EltTy.bits .f32 = 32 ∨ (Rect.block (s := S155648x64) S8192x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8192x64.size a ≤ S155648x64.size a
  hwx3_4 : ∀ i : grid3.Coords, EltTy.bits .f32 = 32 ∨ (Rect.block (s := S155648x64) S8192x64.size (cc3_transform_4 i) (hinb3_4 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2015232x1_S2015232x64_1_0_n_n_0_1_164 : GatherDims S150000x64 S2015232x1 S2015232x64 where
  offsetDims := [1]
  collapsedSliceDims := [0]
  operandBatchingDims := []
  startIndicesBatchingDims := []
  startIndexMap := [0]
  indexVectorDim := 1
  sliceSizes := ![1, 64]
  wf := gather_S150000x64_S2015232x1_S2015232x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_v42) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S16384x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S16384x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S16384x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S16384x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S16384x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S8192x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S8192x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S8192x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v76) S8192x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S2x1000000 : Shape := ⟨2, ![2, 1000000]⟩
abbrev S150000x64 : Shape := ⟨2, ![150000, 64]⟩
abbrev S1x1000000 : Shape := ⟨2, ![1, 1000000]⟩
abbrev S1000000 : Shape := ⟨1, ![1000000]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S2000000x64 : Shape := ⟨2, ![2000000, 64]⟩
abbrev S100000x64 : Shape := ⟨2, ![100000, 64]⟩
abbrev S50000x64 : Shape := ⟨2, ![50000, 64]⟩

abbrev nBuf : Space → Nat
  | .hbm => 103
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S150000x64, .f32⟩
  | .hbm, ⟨2, _⟩ => ⟨S1x1000000, .i32⟩
  | .hbm, ⟨3, _⟩ => ⟨S1000000, .i32⟩
  | .hbm, ⟨4, _⟩ => ⟨S1x1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S2000000, .i32⟩
  | .hbm, ⟨10, _⟩ => ⟨S2000000, .i32⟩
  | .hbm, ⟨11, _⟩ => ⟨S_, .f32⟩
  | .hbm, ⟨12, _⟩ => ⟨S2000000, .f32⟩
  | .hbm, ⟨13, _⟩ => ⟨S_, .f32⟩
  | .hbm, ⟨14, _⟩ => ⟨S150000, .f32⟩
  | .hbm, ⟨15, _⟩ => ⟨S2000000x1, .i32⟩
  | .hbm, ⟨16, _⟩ => ⟨S150000, .f32⟩
  | .hbm, ⟨17, _⟩ => ⟨S_, .f32⟩
  | .hbm, ⟨18, _⟩ => ⟨S150000, .f32⟩
  | .hbm, ⟨19, _⟩ => ⟨S150000, .i1⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S150000, .f32⟩
  | .hbm, ⟨24, _⟩ => ⟨S_, .f32⟩
  | .hbm, ⟨25, _⟩ => ⟨S_, .f32⟩
  | .hbm, ⟨26, _⟩ => ⟨S150000, .f32⟩
  | .hbm, ⟨27, _⟩ => ⟨S150000, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000, .f32⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S2000000, .f32⟩
  | .hbm, ⟨46, _⟩ => ⟨S2000000, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x64, .f32⟩
  | .hbm, ⟨56, _⟩ => ⟨S2000000x1, .f32⟩
  | .hbm, ⟨57, _⟩ => ⟨S2000000x64, .f32⟩
  | .hbm, ⟨58, _⟩ => ⟨S2000000x64, .f32⟩
  | .hbm, ⟨59, _⟩ => ⟨S_, .f32⟩
  | .hbm, ⟨60, _⟩ => ⟨S150000x64, .f32⟩
  | .hbm, ⟨61, _⟩ => ⟨S2000000x1, .i32⟩
  | .hbm, ⟨62, _⟩ => ⟨S150000x64, .f32⟩
  | .hbm, ⟨63, _⟩ => ⟨S150000x64, .f32⟩
  | .hbm, ⟨64, _⟩ => ⟨S_, .i32⟩
  | .hbm, ⟨65, _⟩ => ⟨S2000000, .i32⟩
  | .hbm, ⟨66, _⟩ => ⟨S2000000, .i1⟩
  | .hbm, ⟨67, _⟩ => ⟨S_, .i32⟩
  | .hbm, ⟨68, _⟩ => ⟨S2000000, .i32⟩
  | .hbm, ⟨69, _⟩ => ⟨S2000000, .i32⟩
  | .hbm, ⟨70, _⟩ => ⟨S2000000, .i32⟩
  | .hbm, ⟨71, _⟩ => ⟨S2000000x1, .i32⟩
  | .hbm, ⟨72, _⟩ => ⟨S2000000x64, .f32⟩
  | .hbm, ⟨73, _⟩ => ⟨S2000000x1, .f32⟩
  | .hbm, ⟨74, _⟩ => ⟨S2000000x64, .f32⟩
  | .hbm, ⟨75, _⟩ => ⟨S2000000x64, .f32⟩
  | .hbm, ⟨76, _⟩ => ⟨S_, .f32⟩
  | .hbm, ⟨77, _⟩ => ⟨S150000x64, .f32⟩
  | .hbm, ⟨78, _⟩ => ⟨S2000000x1, .i32⟩
  | .hbm, ⟨79, _⟩ => ⟨S150000x64, .f32⟩
  | .hbm, ⟨80, _⟩ => ⟨S150000x64, .f32⟩
  | .hbm, ⟨81, _⟩ => ⟨S_, .i32⟩
  | .hbm, ⟨82, _⟩ => ⟨S2000000, .i32⟩
  | .hbm, ⟨83, _⟩ => ⟨S2000000, .i1⟩
  | .hbm, ⟨84, _⟩ => ⟨S_, .i32⟩
  | .hbm, ⟨85, _⟩ => ⟨S2000000, .i32⟩
  | .hbm, ⟨86, _⟩ => ⟨S2000000, .i32⟩
  | .hbm, ⟨87, _⟩ => ⟨S2000000, .i32⟩
  | .hbm, ⟨88, _⟩ => ⟨S2000000x1, .i32⟩
  | .hbm, ⟨89, _⟩ => ⟨S2000000x64, .f32⟩
  | .hbm, ⟨90, _⟩ => ⟨S2000000x1, .f32⟩
  | .hbm, ⟨91, _⟩ => ⟨S2000000x64, .f32⟩
  | .hbm, ⟨92, _⟩ => ⟨S2000000x64, .f32⟩
  | .hbm, ⟨93, _⟩ => ⟨S_, .f32⟩
  | .hbm, ⟨94, _⟩ => ⟨S150000x64, .f32⟩
  | .hbm, ⟨95, _⟩ => ⟨S2000000x1, .i32⟩
  | .hbm, ⟨96, _⟩ => ⟨S150000x64, .f32⟩
  | .hbm, ⟨97, _⟩ => ⟨S150000x64, .f32⟩
  | .hbm, ⟨98, _⟩ => ⟨S_, .f32⟩
  | .hbm, ⟨99, _⟩ => ⟨S150000x64, .f32⟩
  | .hbm, ⟨100, _⟩ => ⟨S150000x64, .f32⟩
  | .hbm, ⟨101, _⟩ => ⟨S100000x64, .f32⟩
  | .hbm, ⟨102, _⟩ => ⟨S50000x64, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_c_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_14 : Ref sig .tc := ⟨.hbm, 81, rfl⟩
abbrev main_v61 : Ref sig .tc := ⟨.hbm, 82, rfl⟩
abbrev main_v62 : Ref sig .tc := ⟨.hbm, 83, rfl⟩
abbrev main_c_15 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.Stages.lean ====
/-
  The kernel program's values, stage by stage, as plain functions of the arrays they are computed from.

  The program pads the 2,000,000 directed edges to 2,015,232 = 123 · 16384 rows: the edge weights by zeros, laid out as
  a column, and the source nodes by the index 0. A layer gathers, for every padded edge e, row src[e] of the node table
  (a negative index counted from the end, then clamped into the table: the gather's own reading), multiplies row e by
  the weight of e (`mulRows`: what a multiply region leaves in its output array), keeps the first 2,000,000 rows and
  adds row e into row dst[e] of a zero table. The result is the mean of the input table and the three layers: the four
  tables padded by 5,648 zero rows to 155,648 = 19 · 8192 rows, summed left to right and scaled by the word of 0.25
  (`sumRows`: what the last region leaves), then cut back to 150,000 rows and split into the first 100,000 rows and the last
  50,000. Everything here is generic in the float family.
-/
import proofs.«104251_j75531294867819_1_alg».proof.Proof.Gen.KernelIdeal
import Idealize.ShloMosaic.Lib.ValueIdx

noncomputable section

namespace Cert.KernelIdeal.Stages

open Cert.KernelIdeal Cert.KernelIdeal.Gen Idealize.ShloMosaic Idealize.ShloMosaic.TcCoe

variable {F : FTy → Type} [FloatOps F]

/-- Row `i 0`, column 0 of a one-column array, for `i` an index of the 64-column array beside it. -/
abbrev colIdx (i : S2015232x64.Idx) : S2015232x1.Idx := fun a => match a with
  | ⟨0, _⟩ => ⟨(i 0).val, (i 0).isLt⟩
  | ⟨1, _⟩ => ⟨0, Nat.one_pos⟩

/-- What a multiply region leaves in its output array: row e of the gathered table times the weight of edge e. -/
def mulRows (xg : (⟨S2015232x64, .f32⟩ : BufTy).Contents (Elt F)) (n : (⟨S2015232x1, .f32⟩ : BufTy).Contents (Elt F)) :
    (⟨S2015232x64, .f32⟩ : BufTy).Contents (Elt F) :=
  fun i => FloatOps.mulf (xg i) (n (colIdx i))

/-- What the last region leaves in its output array: the four tables summed left to right, times the word of 0.25. -/
def sumRows (a b c d : (⟨S155648x64, .f32⟩ : BufTy).Contents (Elt F)) : (⟨S155648x64, .f32⟩ : BufTy).Contents (Elt F) :=
  fun i => FloatOps.mulf (FloatOps.addf (FloatOps.addf (FloatOps.addf (a i) (b i)) (c i)) (d i)) (FloatOps.ofBits .f32 0x3E800000#32)

/-- The edge weights padded by zeros to 2,015,232 rows, as a column. -/
def normCol (norm : (⟨S2000000, .f32⟩ : BufTy).Contents (Elt F)) : (⟨S2015232x1, .f32⟩ : BufTy).Contents (Elt F) :=
  shapeCast S2015232x1 (pad S2015232 ![0] ![15232] ![0] norm (sitofp (F := F) .f32 (constantI S_ 32 0#32)) pads_S2000000_S2015232_0152320 h_S_) shapeCasts_S2015232_S2015232x1

/-- The source nodes padded by the index 0 to 2,015,232 rows. -/
def srcPad (src : (⟨S2000000, .i32⟩ : BufTy).Contents (Elt F)) : (⟨S2015232, .i32⟩ : BufTy).Contents (Elt F) :=
  pad S2015232 ![0] ![15232] ![0] src (id (constantI S_ 32 0#32)) pads_S2000000_S2015232_0152320 h_S_

/-- The gather's start indices: a negative source index has 150,000 added, and the result is laid out as a column. -/
def rowIdx (srcp : (⟨S2015232, .i32⟩ : BufTy).Contents (Elt F)) : (⟨S2015232x1, .i32⟩ : BufTy).Contents (Elt F) :=
  broadcastInDim S2015232x1 ![0] bcast_S2015232_S2015232x1_0
    (select (cmpi .slt srcp (broadcastInDim S2015232 ![] bcast_S_S2015232 (constantI S_ 32 0#32)))
      (addi srcp (broadcastInDim S2015232 ![] bcast_S_S2015232 (constantI S_ 32 150000#32))) srcp)

/-- Row src[e] of the node table `X`, for every padded edge e. -/
def gathered (srcp : (⟨S2015232, .i32⟩ : BufTy).Contents (Elt F)) (X : (⟨S150000x64, .f32⟩ : BufTy).Contents (Elt F)) :
    (⟨S2015232x64, .f32⟩ : BufTy).Contents (Elt F) :=
  Host.gather gather_S150000x64_S2015232x1_S2015232x64_1_0_n_n_0_1_164 X (rowIdx (F := F) srcp)

/-- The messages of one layer: the multiply region's output array cut back to the 2,000,000 edges. -/
def messages (srcp : (⟨S2015232, .i32⟩ : BufTy).Contents (Elt F)) (ncol : (⟨S2015232x1, .f32⟩ : BufTy).Contents (Elt F))
    (X : (⟨S150000x64, .f32⟩ : BufTy).Contents (Elt F)) : (⟨S2000000x64, .f32⟩ : BufTy).Contents (Elt F) :=
  extractStridedSlice S2000000x64 ![0, 0] (mulRows (F := F) (gathered (F := F) srcp X) ncol) slices_S2015232x64_S2000000x64_0_0

/-- One layer: the messages added, row e into row dst[e], into a zero table. -/
def layer (dst : (⟨S2000000, .i32⟩ : BufTy).Contents (Elt F)) (srcp : (⟨S2015232, .i32⟩ : BufTy).Contents (Elt F))
    (ncol : (⟨S2015232x1, .f32⟩ : BufTy).Contents (Elt F)) (X : (⟨S150000x64, .f32⟩ : BufTy).Contents (Elt F)) :
    (⟨S150000x64, .f32⟩ : BufTy).Contents (Elt F) :=
  Host.scatterAdd scatter_S150000x64_S2000000x1_S2000000x64_1_0_0_1
    (broadcastInDim S150000x64 ![] bcast_S_S150000x64 (constant (F := F) S_ .f32 0x00000000#32))
    (broadcastInDim S2000000x1 ![0] bcast_S2000000_S2000000x1_0 dst)
    (messages (F := F) srcp ncol X)

/-- A node table padded by 5,648 zero rows to 155,648 rows. -/
def padRows (X : (⟨S150000x64, .f32⟩ : BufTy).Contents (Elt F)) : (⟨S155648x64, .f32⟩ : BufTy).Contents (Elt F) :=
  pad S155648x64 ![0, 0] ![5648, 0] ![0, 0] X (sitofp (F := F) .f32 (constantI S_ 32 0#32)) pads_S150000x64_S155648x64_056480_000 h_S_

/-- The mean of the input table and the three layers, over the 150,000 nodes. -/
def meanTable (dst : (⟨S2000000, .i32⟩ : BufTy).Contents (Elt F)) (src : (⟨S2000000, .i32⟩ : BufTy).Contents (Elt F))
    (norm : (⟨S2000000, .f32⟩ : BufTy).Contents (Elt F)) (X : (⟨S150000x64, .f32⟩ : BufTy).Contents (Elt F)) :
    (⟨S150000x64, .f32⟩ : BufTy).Contents (Elt F) :=
  extractStridedSlice S150000x64 ![0, 0]
    (sumRows (F := F) (padRows (F := F) X)
      (padRows (F := F) (layer (F := F) dst (srcPad (F := F) src) (normCol (F := F) norm) X))
      (padRows (F := F) (layer (F := F) dst (srcPad (F := F) src) (normCol (F := F) norm)
        (layer (F := F) dst (srcPad (F := F) src) (normCol (F := F) norm) X)))
      (padRows (F := F) (layer (F := F) dst (srcPad (F := F) src) (normCol (F := F) norm)
        (layer (F := F) dst (srcPad (F := F) src) (normCol (F := F) norm)
          (layer (F := F) dst (srcPad (F := F) src) (normCol (F := F) norm) X)))))
    slices_S155648x64_S150000x64_0_0

/-- The program's first result: the first 100,000 rows of the mean table. -/
def result0 (dst src : (⟨S2000000, .i32⟩ : BufTy).Contents (Elt F)) (norm : (⟨S2000000, .f32⟩ : BufTy).Contents (Elt F))
    (X : (⟨S150000x64, .f32⟩ : BufTy).Contents (Elt F)) : (⟨S100000x64, .f32⟩ : BufTy).Contents (Elt F) :=
  extractStridedSlice S100000x64 ![0, 0] (meanTable (F := F) dst src norm X) slices_S150000x64_S100000x64_0_0

/-- The program's second result: the last 50,000 rows of the mean table. -/
def result1 (dst src : (⟨S2000000, .i32⟩ : BufTy).Contents (Elt F)) (norm : (⟨S2000000, .f32⟩ : BufTy).Contents (Elt F))
    (X : (⟨S150000x64, .f32⟩ : BufTy).Contents (Elt F)) : (⟨S50000x64, .f32⟩ : BufTy).Contents (Elt F) :=
  extractStridedSlice S50000x64 ![100000, 0] (meanTable (F := F) dst src norm X) slices_S150000x64_S50000x64_100000_0

end Cert.KernelIdeal.Stages

end
-- ==== Proof.RegionMul0.lean ====
/-
  Region 0 (the first layer's multiply) as one function of the arrays it finds: its output array ends holding, at
  every index (e, d), the gathered table's entry (e, d) times the weight of edge e.
-/
import proofs.«104251_j75531294867819_1_alg».proof.Proof.Gen.KernelIdeal.Frame
import proofs.«104251_j75531294867819_1_alg».proof.Proof.Stages
import Idealize.ShloMosaic.Lib.Pipeline.Value

noncomputable section

namespace Cert.KernelIdeal.Region0

open Cert.KernelIdeal Cert.KernelIdeal.Gen Idealize.ShloMosaic Idealize.ShloMosaic.TcCoe Idealize.SL.Sem

variable {F : FTy → Type} [FloatOps F]
variable (V : (c : Dev nD) → (b : Ref sig .tc) → Buf (Elt F) ((c : Thread nD τ).loc b))

/-- The body's loads and its store go through the whole staging buffer: the offsets are zero. -/
theorem zero_offsets : (![0, 0] : Fin 2 → Nat) = fun _ => 0 := funext fun a => by fin_cases a <;> rfl

/-- A one-column block broadcast to 64 columns, read at `j`, is the column's entry in row `j 0`. -/
theorem column_broadcast_apply {α : Type} (x : S16384x1.Idx → α) (h : S16384x1.Broadcasts S16384x64)
    (j : S16384x64.Idx) (k : S16384x1.Idx) (hk0 : (k 0).val = (j 0).val) (hk1 : (k 1).val = 0) :
    broadcastTo S16384x64 x h j = x k := by
  refine broadcastTo_apply x h j k fun a => ?_
  match a with
  | ⟨0, _⟩ => show (k 0).val = if (16384 : Nat) = 1 then 0 else (j 0).val; rw [if_neg (by decide)]; exact hk0
  | ⟨1, _⟩ => show (k 1).val = if (1 : Nat) = 1 then 0 else (j 1).val; rw [if_pos rfl]; exact hk1

/-- Row `j 0`, column 0 of the one-column block, for `j` an index of the 64-column block beside it. -/
abbrev blockColIdx (j : S16384x64.Idx) : S16384x1.Idx := fun a => match a with
  | ⟨0, _⟩ => ⟨(j 0).val, (j 0).isLt⟩
  | ⟨1, _⟩ => ⟨0, Nat.one_pos⟩

/-- The body's payload at an index of the block: the table block's entry there times the weight block's entry in
    the same row. -/
theorem payload_apply (x0 : Vec F S16384x64 .f32) (x1 : Vec F S16384x1 .f32) (j : S16384x64.Idx) (k : S16384x1.Idx)
    (hk0 : (k 0).val = (j 0).val) (hk1 : (k 1).val = 0) :
    k0_pay1 x0 x1 j = FloatOps.mulf (x0 j) (x1 k) := by
  unfold k0_pay1
  simp only [shapeCast_self]
  show FloatOps.mulf (x0 j) (broadcastTo S16384x64 x1 broadcasts_S16384x1_S16384x64 j) = _
  rw [column_broadcast_apply x1 _ j k hk0 hk1]

/-- The printed index maps over the grid: at point `t` all three windows sit on row block `t`, column block 0. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `mulRows` of the two arrays as the region finds them. -/
theorem writeback_eq (c : Dev nD) (t : Fin cfg0.N) :
    (dat0 V c).flushed 2 t
      = ((cfg0.win 2).blk t).view.read (Elt F) (Stages.mulRows (F := F) (V c main_v42) (V c main_v35)) := by
  show (cfg0.win 2).cut (grid0.coords t) ((dat0 V c).after 2 t) = _
  rw [after0_2]
  unfold out0_2
  rw [View.canon_unit_zero zero_offsets]
  simp only [View.ld_unit_zero (S := S16384x64) zero_offsets, View.ld_unit_zero (S := S16384x1) zero_offsets]
  obtain ⟨e0, e1, e2, e3, e4, e5⟩ := block_indices t
  funext j
  show k0_pay1 (iblk0 V c 0 t) (iblk0 V c 1 t) j
      = Stages.mulRows (F := F) (V c main_v42) (V c main_v35) (((cfg0.win 2).blk t).view.emb j)
  refine (payload_apply _ _ j (blockColIdx j) rfl rfl).trans ?_
  show FloatOps.mulf (V c main_v42 (((cfg0.win 0).blk t).view.emb j))
        (V c main_v35 (((cfg0.win 1).blk t).view.emb (blockColIdx j)))
      = FloatOps.mulf (V c main_v42 (((cfg0.win 2).blk t).view.emb j))
        (V c main_v35 (Stages.colIdx (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (blockColIdx j) = Stages.colIdx (((cfg0.win 2).blk t).view.emb j) := by
    funext a; apply Fin.ext
    match a with
    | ⟨0, _⟩ => show win0_1.index t (0 : Fin 2) * 16384 + 1 * (j 0).val = win0_2.index t (0 : Fin 2) * 16384 + 1 * (j 0).val; omega
    | ⟨1, _⟩ => show win0_1.index t (1 : Fin 2) * 1 + 1 * 0 = 0; omega
  rw [h0, h1]

/-- An index of the array is in point `t`'s block iff each coordinate is in the block's range on its axis. -/
theorem mem_block (t : Fin cfg0.N) (i : S2015232x64.Idx) :
    i ∈ ((cfg0.win 2).blk t).view.set ↔ ∀ a : Fin 2, win0_2.index t a * S16384x64.size a ≤ (i a).val
      ∧ (i a).val < win0_2.index t a * S16384x64.size a + S16384x64.size a := by
  show i ∈ ((View.whole main_v43).slice (win0_2.rect t)).set ↔ _
  rw [View.set_slice_whole, Rect.mem_set_unit]
  exact Iff.rfl

/-- The 123 blocks of 16384 rows tile the 2015232 rows: row `r` lies in the block of point `r / 16384`. -/
theorem covered (i : S2015232x64.Idx) :
    ∃ t : Fin cfg0.N, (cfg0.win 2).flush t = true ∧ i ∈ ((cfg0.win 2).blk t).view.set := by
  have hi0 : (i 0).val < 2015232 := (i 0).isLt
  have hi1 : (i 1).val < 64 := (i 1).isLt
  have hN : cfg0.N = 123 := N_0
  obtain ⟨t, ht⟩ : ∃ t : Fin cfg0.N, t.val = (i 0).val / 16384 := ⟨⟨(i 0).val / 16384, by omega⟩, rfl⟩
  obtain ⟨-, -, -, -, e4, e5⟩ := block_indices t
  refine ⟨t, flush0_2 t, ?_⟩
  rw [mem_block]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 64 ≤ (i 1).val ∧ (i 1).val < win0_2.index t (1 : Fin 2) * 64 + 64; omega

/-- The output array after the region's 123 write-backs. -/
theorem array_eq (c : Dev nD) :
    (dat0 V c).arrAt 2 cfg0.N = Stages.mulRows (F := F) (V c main_v42) (V c main_v35) :=
  (dat0 V c).arrAt_eq_of_cover 2 (Stages.mulRows (F := F) (V c main_v42) (V c main_v35))
    (fun t _ => writeback_eq V c t) covered

end Cert.KernelIdeal.Region0

end
-- ==== Proof.RegionSum.lean ====
/-
  Region 3 (the mean of the four tables) as one function of the arrays it finds: its output array ends holding, at
  every index, the four padded tables' entries summed left to right, times the word of 0.25.
-/
import proofs.«104251_j75531294867819_1_alg».proof.Proof.Gen.KernelIdeal.Frame
import proofs.«104251_j75531294867819_1_alg».proof.Proof.Stages
import Idealize.ShloMosaic.Lib.Pipeline.Value

noncomputable section

namespace Cert.KernelIdeal.Region3

open Cert.KernelIdeal Cert.KernelIdeal.Gen Idealize.ShloMosaic Idealize.ShloMosaic.TcCoe Idealize.SL.Sem

variable {F : FTy → Type} [FloatOps F]
variable (V : (c : Dev nD) → (b : Ref sig .tc) → Buf (Elt F) ((c : Thread nD τ).loc b))

/-- The body's loads and its store go through the whole staging buffer: the offsets are zero. -/
theorem zero_offsets : (![0, 0] : Fin 2 → Nat) = fun _ => 0 := funext fun a => by fin_cases a <;> rfl

/-- The body's payload at an index of the block: the four blocks' entries there added left to right, times the
    word of 0.25. -/
theorem payload_apply (x0 x1 x2 x3 : Vec F S8192x64 .f32) (j : S8192x64.Idx) :
    k3_pay1 x0 x1 x2 x3 j
      = FloatOps.mulf (FloatOps.addf (FloatOps.addf (FloatOps.addf (x0 j) (x1 j)) (x2 j)) (x3 j))
          (FloatOps.ofBits .f32 0x3E800000#32) := by
  unfold k3_pay1
  simp only [shapeCast_self]
  rfl

/-- The printed index maps over the grid: at point `t` all five windows sit on row block `t`, column block 0. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Input window 0's block at point `t`, read where the output's block sits in its array. -/
theorem block0_apply (c : Dev nD) (t : Fin cfg3.N) (j : S8192x64.Idx) :
    (iblk3 V c 0 t : Vec F S8192x64 .f32) j = V c main_v72 (((cfg3.win 4).blk t).view.emb j) := by
  have e := block_indices t
  show V c main_v72 (((cfg3.win 0).blk t).view.emb j) = V c main_v72 (((cfg3.win 4).blk t).view.emb j)
  refine congrArg (V c main_v72) (funext fun a => Fin.ext ?_)
  match a with
  | ⟨0, _⟩ => show win3_0.index t (0 : Fin 2) * 8192 + 1 * (j 0).val = win3_4.index t (0 : Fin 2) * 8192 + 1 * (j 0).val; omega
  | ⟨1, _⟩ => show win3_0.index t (1 : Fin 2) * 64 + 1 * (j 1).val = win3_4.index t (1 : Fin 2) * 64 + 1 * (j 1).val; omega

/-- Input window 1's block at point `t`, read where the output's block sits in its array. -/
theorem block1_apply (c : Dev nD) (t : Fin cfg3.N) (j : S8192x64.Idx) :
    (iblk3 V c 1 t : Vec F S8192x64 .f32) j = V c main_v73 (((cfg3.win 4).blk t).view.emb j) := by
  have e := block_indices t
  show V c main_v73 (((cfg3.win 1).blk t).view.emb j) = V c main_v73 (((cfg3.win 4).blk t).view.emb j)
  refine congrArg (V c main_v73) (funext fun a => Fin.ext ?_)
  match a with
  | ⟨0, _⟩ => show win3_1.index t (0 : Fin 2) * 8192 + 1 * (j 0).val = win3_4.index t (0 : Fin 2) * 8192 + 1 * (j 0).val; omega
  | ⟨1, _⟩ => show win3_1.index t (1 : Fin 2) * 64 + 1 * (j 1).val = win3_4.index t (1 : Fin 2) * 64 + 1 * (j 1).val; omega

/-- Input window 2's block at point `t`, read where the output's block sits in its array. -/
theorem block2_apply (c : Dev nD) (t : Fin cfg3.N) (j : S8192x64.Idx) :
    (iblk3 V c 2 t : Vec F S8192x64 .f32) j = V c main_v74 (((cfg3.win 4).blk t).view.emb j) := by
  have e := block_indices t
  show V c main_v74 (((cfg3.win 2).blk t).view.emb j) = V c main_v74 (((cfg3.win 4).blk t).view.emb j)
  refine congrArg (V c main_v74) (funext fun a => Fin.ext ?_)
  match a with
  | ⟨0, _⟩ => show win3_2.index t (0 : Fin 2) * 8192 + 1 * (j 0).val = win3_4.index t (0 : Fin 2) * 8192 + 1 * (j 0).val; omega
  | ⟨1, _⟩ => show win3_2.index t (1 : Fin 2) * 64 + 1 * (j 1).val = win3_4.index t (1 : Fin 2) * 64 + 1 * (j 1).val; omega

/-- Input window 3's block at point `t`, read where the output's block sits in its array. -/
theorem block3_apply (c : Dev nD) (t : Fin cfg3.N) (j : S8192x64.Idx) :
    (iblk3 V c 3 t : Vec F S8192x64 .f32) j = V c main_v75 (((cfg3.win 4).blk t).view.emb j) := by
  have e := block_indices t
  show V c main_v75 (((cfg3.win 3).blk t).view.emb j) = V c main_v75 (((cfg3.win 4).blk t).view.emb j)
  refine congrArg (V c main_v75) (funext fun a => Fin.ext ?_)
  match a with
  | ⟨0, _⟩ => show win3_3.index t (0 : Fin 2) * 8192 + 1 * (j 0).val = win3_4.index t (0 : Fin 2) * 8192 + 1 * (j 0).val; omega
  | ⟨1, _⟩ => show win3_3.index t (1 : Fin 2) * 64 + 1 * (j 1).val = win3_4.index t (1 : Fin 2) * 64 + 1 * (j 1).val; omega

/-- What point `t` writes back is block `t` of `sumRows` of the four arrays as the region finds them. -/
theorem writeback_eq (c : Dev nD) (t : Fin cfg3.N) :
    (dat3 V c).flushed 4 t
      = ((cfg3.win 4).blk t).view.read (Elt F)
          (Stages.sumRows (F := F) (V c main_v72) (V c main_v73) (V c main_v74) (V c main_v75)) := by
  show (cfg3.win 4).cut (grid3.coords t) ((dat3 V c).after 4 t) = _
  rw [after3_4]
  unfold out3_4
  rw [View.canon_unit_zero zero_offsets]
  simp only [View.ld_unit_zero (S := S8192x64) zero_offsets]
  funext j
  show k3_pay1 (iblk3 V c 0 t) (iblk3 V c 1 t) (iblk3 V c 2 t) (iblk3 V c 3 t) j
      = Stages.sumRows (F := F) (V c main_v72) (V c main_v73) (V c main_v74) (V c main_v75)
          (((cfg3.win 4).blk t).view.emb j)
  refine (payload_apply _ _ _ _ j).trans ?_
  rw [block0_apply V c t j, block1_apply V c t j, block2_apply V c t j, block3_apply V c t j]
  rfl

/-- An index of the array is in point `t`'s block iff each coordinate is in the block's range on its axis. -/
theorem mem_block (t : Fin cfg3.N) (i : S155648x64.Idx) :
    i ∈ ((cfg3.win 4).blk t).view.set ↔ ∀ a : Fin 2, win3_4.index t a * S8192x64.size a ≤ (i a).val
      ∧ (i a).val < win3_4.index t a * S8192x64.size a + S8192x64.size a := by
  show i ∈ ((View.whole main_v76).slice (win3_4.rect t)).set ↔ _
  rw [View.set_slice_whole, Rect.mem_set_unit]
  exact Iff.rfl

/-- The 19 blocks of 8192 rows tile the 155648 rows: row `r` lies in the block of point `r / 8192`. -/
theorem covered (i : S155648x64.Idx) :
    ∃ t : Fin cfg3.N, (cfg3.win 4).flush t = true ∧ i ∈ ((cfg3.win 4).blk t).view.set := by
  have hi0 : (i 0).val < 155648 := (i 0).isLt
  have hi1 : (i 1).val < 64 := (i 1).isLt
  have hN : cfg3.N = 19 := N_3
  obtain ⟨t, ht⟩ : ∃ t : Fin cfg3.N, t.val = (i 0).val / 8192 := ⟨⟨(i 0).val / 8192, by omega⟩, rfl⟩
  obtain ⟨-, -, -, -, -, -, -, -, e8, e9⟩ := block_indices t
  refine ⟨t, flush3_4 t, ?_⟩
  rw [mem_block]
  intro a
  match a with
  | ⟨0, _⟩ => show win3_4.index t (0 : Fin 2) * 8192 ≤ (i 0).val ∧ (i 0).val < win3_4.index t (0 : Fin 2) * 8192 + 8192; omega
  | ⟨1, _⟩ => show win3_4.index t (1 : Fin 2) * 64 ≤ (i 1).val ∧ (i 1).val < win3_4.index t (1 : Fin 2) * 64 + 64; omega

/-- The output array after the region's 19 write-backs. -/
theorem array_eq (c : Dev nD) :
    (dat3 V c).arrAt 4 cfg3.N = Stages.sumRows (F := F) (V c main_v72) (V c main_v73) (V c main_v74) (V c main_v75) :=
  (dat3 V c).arrAt_eq_of_cover 4
    (Stages.sumRows (F := F) (V c main_v72) (V c main_v73) (V c main_v74) (V c main_v75))
    (fun t _ => writeback_eq V c t) covered

end Cert.KernelIdeal.Region3

end
-- ==== Proof.Fold.lean ====
/-
  The kernel program's run read back to its two results.

  @main is 22 segments: host stretches and four regions. The contents of the TensorCore's buffers at the segment
  boundaries are a fold from the launch memory (the generated frame's `W0` … `W22`), and the run ends with the
  results at `W22`. Read here, boundary by boundary, are the few buffers later segments use: the destination nodes,
  the padded source nodes, the padded weight column, the input table and the layers so far. A host stretch is read
  over an ARBITRARY valuation `X` of the buffers (what it writes as the operations' term of what it reads, what it
  does not write unchanged); a region's output array is that region's one whole-array function of the arrays it finds,
  and every other buffer passes a region unchanged. The shared prefix of the two programs (the edge ends and the edge
  weights, operations %0 to %32) is the reference's own stages `val_main_v6`, `val_main_v7`, `val_main_v32` of the
  edge list. Joined, the fold's last level at the two result buffers is `Stages.result0` / `Stages.result1` of those.
-/
import proofs.«104251_j75531294867819_1_alg».proof.Proof.Gen.KernelIdeal.Frame
import proofs.«104251_j75531294867819_1_alg».proof.Proof.Stages
import proofs.«104251_j75531294867819_1_alg».proof.Proof.RefRead
import proofs.«104251_j75531294867819_1_alg».proof.Proof.RegionMul0
import proofs.«104251_j75531294867819_1_alg».proof.Proof.RegionMul1
import proofs.«104251_j75531294867819_1_alg».proof.Proof.RegionMul2
import proofs.«104251_j75531294867819_1_alg».proof.Proof.RegionSum
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.ReadP (val_main_v6 val_main_v7 val_main_v32)

variable {F : FTy → Type} [FloatOps F]

/-- A layer read off a multiply region's whole output array: its first 2,000,000 rows added, row e into row dst[e],
    into a zero table. -/
def layerOf (dst : (⟨S2000000, .i32⟩ : BufTy).Contents (Elt F)) (arr : (⟨S2015232x64, .f32⟩ : BufTy).Contents (Elt F)) :
    (⟨S150000x64, .f32⟩ : BufTy).Contents (Elt F) :=
  Host.scatterAdd scatter_S150000x64_S2000000x1_S2000000x64_1_0_0_1
    (broadcastInDim S150000x64 ![] bcast_S_S150000x64 (constant (F := F) S_ .f32 0x00000000#32))
    (broadcastInDim S2000000x1 ![0] bcast_S2000000_S2000000x1_0 dst)
    (extractStridedSlice S2000000x64 ![0, 0] arr slices_S2015232x64_S2000000x64_0_0)

/-- A layer of a table is the layer read off the multiply region's array of that table's gathered rows. -/
theorem layer_eq (dst : (⟨S2000000, .i32⟩ : BufTy).Contents (Elt F)) (srcp : (⟨S2015232, .i32⟩ : BufTy).Contents (Elt F))
    (ncol : (⟨S2015232x1, .f32⟩ : BufTy).Contents (Elt F)) (T : (⟨S150000x64, .f32⟩ : BufTy).Contents (Elt F)) :
    Stages.layer (F := F) dst srcp ncol T = layerOf (F := F) dst (Stages.mulRows (F := F) (Stages.gathered (F := F) srcp T) ncol) := rfl

/-! ## The host stretches, over an arbitrary valuation of the buffers -/

section Stretches

variable (X : Valuation τ sig (Elt F))

/-! ### From the launch to the first region: 61 operations -/

set_option maxHeartbeats 4000000 in
/-- The first region's table: the input table's rows at the padded source nodes. -/
theorem entry_v42 : after hostOps0_6 (after hostOps0_5 (after hostOps0_4 (after hostOps0_3 (after hostOps0_2 (after hostOps0_1 (after hostOps0 (X))))))) (Proc.devRef .tc main_v42)
    = Stages.gathered (F := F) (Stages.srcPad (F := F) (val_main_v6 (F := F) (X (Proc.devRef .tc main_arg0)))) (X (Proc.devRef .tc main_arg1)) := by
  after_results_simp <;> rfl

set_option maxHeartbeats 4000000 in
/-- The weight column every multiply region reads. -/
theorem entry_v35 : after hostOps0_6 (after hostOps0_5 (after hostOps0_4 (after hostOps0_3 (after hostOps0_2 (after hostOps0_1 (after hostOps0 (X))))))) (Proc.devRef .tc main_v35)
    = Stages.normCol (F := F) (val_main_v32 (F := F) (X (Proc.devRef .tc main_arg0))) := by
  after_results_simp <;> rfl

set_option maxHeartbeats 4000000 in
/-- The padded source nodes. -/
theorem entry_v34 : after hostOps0_6 (after hostOps0_5 (after hostOps0_4 (after hostOps0_3 (after hostOps0_2 (after hostOps0_1 (after hostOps0 (X))))))) (Proc.devRef .tc main_v34)
    = Stages.srcPad (F := F) (val_main_v6 (F := F) (X (Proc.devRef .tc main_arg0))) := by
  after_results_simp <;> rfl

set_option maxHeartbeats 4000000 in
/-- The destination nodes. -/
theorem entry_v7 : after hostOps0_6 (after hostOps0_5 (after hostOps0_4 (after hostOps0_3 (after hostOps0_2 (after hostOps0_1 (after hostOps0 (X))))))) (Proc.devRef .tc main_v7)
    = val_main_v7 (F := F) (X (Proc.devRef .tc main_arg0)) := by
  after_results_simp <;> rfl

set_option maxHeartbeats 4000000 in
/-- The input table is not written. -/
theorem entry_arg1 : after hostOps0_6 (after hostOps0_5 (after hostOps0_4 (after hostOps0_3 (after hostOps0_2 (after hostOps0_1 (after hostOps0 (X))))))) (Proc.devRef .tc main_arg1) = X (Proc.devRef .tc main_arg1) := by
  after_results_simp <;> rfl

/-! ### After the first region: the first layer, and its rows gathered for the second -/

theorem s1_v47 : after hostOps1 X (Proc.devRef .tc main_v47) = layerOf (F := F) (X (Proc.devRef .tc main_v7)) (X (Proc.devRef .tc main_v43)) := by
  after_results_simp <;> rfl
theorem s1_v54 : after hostOps1 X (Proc.devRef .tc main_v54)
    = Stages.gathered (F := F) (X (Proc.devRef .tc main_v34)) (layerOf (F := F) (X (Proc.devRef .tc main_v7)) (X (Proc.devRef .tc main_v43))) := by
  after_results_simp <;> rfl
theorem s1_v7 : after hostOps1 X (Proc.devRef .tc main_v7) = X (Proc.devRef .tc main_v7) := by after_results_simp <;> rfl
theorem s1_v34 : after hostOps1 X (Proc.devRef .tc main_v34) = X (Proc.devRef .tc main_v34) := by after_results_simp <;> rfl
theorem s1_v35 : after hostOps1 X (Proc.devRef .tc main_v35) = X (Proc.devRef .tc main_v35) := by after_results_simp <;> rfl
theorem s1_arg1 : after hostOps1 X (Proc.devRef .tc main_arg1) = X (Proc.devRef .tc main_arg1) := by after_results_simp <;> rfl

/-! ### After the second region: the second layer, and its rows gathered for the third -/

theorem s2_v59 : after hostOps2 X (Proc.devRef .tc main_v59) = layerOf (F := F) (X (Proc.devRef .tc main_v7)) (X (Proc.devRef .tc main_v55)) := by
  after_results_simp <;> rfl
theorem s2_v66 : after hostOps2 X (Proc.devRef .tc main_v66)
    = Stages.gathered (F := F) (X (Proc.devRef .tc main_v34)) (layerOf (F := F) (X (Proc.devRef .tc main_v7)) (X (Proc.devRef .tc main_v55))) := by
  after_results_simp <;> rfl
theorem s2_v7 : after hostOps2 X (Proc.devRef .tc main_v7) = X (Proc.devRef .tc main_v7) := by after_results_simp <;> rfl
theorem s2_v35 : after hostOps2 X (Proc.devRef .tc main_v35) = X (Proc.devRef .tc main_v35) := by after_results_simp <;> rfl
theorem s2_v47 : after hostOps2 X (Proc.devRef .tc main_v47) = X (Proc.devRef .tc main_v47) := by after_results_simp <;> rfl
theorem s2_arg1 : after hostOps2 X (Proc.devRef .tc main_arg1) = X (Proc.devRef .tc main_arg1) := by after_results_simp <;> rfl

/-! ### After the third region: the third layer, and the four tables padded for the last region -/

theorem s3_v72 : after hostOps3_7 (after hostOps3_6 (after hostOps3_5 (after hostOps3_4 (after hostOps3_3 (after hostOps3_2 (after hostOps3_1 (after hostOps3 (X)))))))) (Proc.devRef .tc main_v72) = Stages.padRows (F := F) (X (Proc.devRef .tc main_arg1)) := by
  after_results_simp <;> rfl
theorem s3_v73 : after hostOps3_7 (after hostOps3_6 (after hostOps3_5 (after hostOps3_4 (after hostOps3_3 (after hostOps3_2 (after hostOps3_1 (after hostOps3 (X)))))))) (Proc.devRef .tc main_v73) = Stages.padRows (F := F) (X (Proc.devRef .tc main_v47)) := by
  after_results_simp <;> rfl
theorem s3_v74 : after hostOps3_7 (after hostOps3_6 (after hostOps3_5 (after hostOps3_4 (after hostOps3_3 (after hostOps3_2 (after hostOps3_1 (after hostOps3 (X)))))))) (Proc.devRef .tc main_v74) = Stages.padRows (F := F) (X (Proc.devRef .tc main_v59)) := by
  after_results_simp <;> rfl
theorem s3_v75 : after hostOps3_7 (after hostOps3_6 (after hostOps3_5 (after hostOps3_4 (after hostOps3_3 (after hostOps3_2 (after hostOps3_1 (after hostOps3 (X)))))))) (Proc.devRef .tc main_v75)
    = Stages.padRows (F := F) (layerOf (F := F) (X (Proc.devRef .tc main_v7)) (X (Proc.devRef .tc main_v67))) := by
  after_results_simp <;> rfl

/-! ### After the last region: the two results cut out of its array -/

theorem s4_v78 : after hostOps4 X (Proc.devRef .tc main_v78)
    = extractStridedSlice S100000x64 ![0, 0] (extractStridedSlice S150000x64 ![0, 0] (X (Proc.devRef .tc main_v76)) slices_S155648x64_S150000x64_0_0) slices_S150000x64_S100000x64_0_0 := by
  after_results_simp <;> rfl
theorem s4_v79 : after hostOps4 X (Proc.devRef .tc main_v79)
    = extractStridedSlice S50000x64 ![100000, 0] (extractStridedSlice S150000x64 ![0, 0] (X (Proc.devRef .tc main_v76)) slices_S155648x64_S150000x64_0_0) slices_S150000x64_S50000x64_100000_0 := by
  after_results_simp <;> rfl

end Stretches

/-! ## An input window is never written back -/

/-- Window 1 of the first multiply region (the weight column) is written back at no grid point. -/
theorem column_never_flushed0 : ∀ t : Fin cfg0.N, (cfg0.win 1).flush t = false :=
  (by decide +kernel : ∀ t : Fin grid0.N, win0_1.flush t = false)
/-- Window 1 of the second multiply region is written back at no grid point. -/
theorem column_never_flushed1 : ∀ t : Fin cfg1.N, (cfg1.win 1).flush t = false :=
  (by decide +kernel : ∀ t : Fin grid1.N, win1_1.flush t = false)

/-! ## The run, boundary by boundary -/

section Run

variable (m : (ℓ : Loc nD τ sig) → Buf (Elt F) ℓ) (ρ : Dev nD → PrngReg) (c : Dev nD)

/-- The edge list at launch. -/
abbrev edges : (⟨S2x1000000, .i32⟩ : BufTy).Contents (Elt F) := m ((c : Thread nD τ).loc main_arg0)
/-- The input table at launch. -/
abbrev table : (⟨S150000x64, .f32⟩ : BufTy).Contents (Elt F) := m ((c : Thread nD τ).loc main_arg1)
/-- The destination nodes, the padded source nodes and the padded weight column: functions of the edge list alone. -/
abbrev dstV : (⟨S2000000, .i32⟩ : BufTy).Contents (Elt F) := val_main_v7 (F := F) (edges m c)
abbrev srcV : (⟨S2015232, .i32⟩ : BufTy).Contents (Elt F) := Stages.srcPad (F := F) (val_main_v6 (F := F) (edges m c))
abbrev colV : (⟨S2015232x1, .f32⟩ : BufTy).Contents (Elt F) := Stages.normCol (F := F) (val_main_v32 (F := F) (edges m c))
/-- One layer of a table. -/
abbrev lay (T : (⟨S150000x64, .f32⟩ : BufTy).Contents (Elt F)) : (⟨S150000x64, .f32⟩ : BufTy).Contents (Elt F) :=
  Stages.layer (F := F) (dstV m c) (srcV m c) (colV m c) T

/-! ### At the first region's entry -/

theorem W7_v42 : W7 m ρ c (Proc.devRef .tc main_v42) = Stages.gathered (F := F) (srcV m c) (table m c) := entry_v42 (W0 m ρ c)
theorem W7_v35 : W7 m ρ c (Proc.devRef .tc main_v35) = colV m c := entry_v35 (W0 m ρ c)
theorem W7_v34 : W7 m ρ c (Proc.devRef .tc main_v34) = srcV m c := entry_v34 (W0 m ρ c)
theorem W7_v7 : W7 m ρ c (Proc.devRef .tc main_v7) = dstV m c := entry_v7 (W0 m ρ c)
theorem W7_arg1 : W7 m ρ c (Proc.devRef .tc main_arg1) = table m c := entry_arg1 (W0 m ρ c)

/-! ### At the first region's exit: its output array is the gathered rows times the weights; the rest is as entered -/

theorem W8_v43 : W8 m ρ c (Proc.devRef .tc main_v43)
    = Stages.mulRows (F := F) (Stages.gathered (F := F) (srcV m c) (table m c)) (colV m c) :=
  (W8_arr m ρ c 2).trans ((Region0.array_eq (V7 m ρ) c).trans
    (congrArg₂ (Stages.mulRows (F := F)) (W7_v42 m ρ c) (W7_v35 m ρ c)))
theorem W8_v7 : W8 m ρ c (Proc.devRef .tc main_v7) = dstV m c :=
  (W8_of_ne m ρ c main_v7 (by decide)).trans (W7_v7 m ρ c)
theorem W8_v34 : W8 m ρ c (Proc.devRef .tc main_v34) = srcV m c :=
  (W8_of_ne m ρ c main_v34 (by decide)).trans (W7_v34 m ρ c)
/-- The weight column is the first region's input window 1: never written back, so its array is as entered. -/
theorem W8_v35 : W8 m ρ c (Proc.devRef .tc main_v35) = colV m c :=
  (W8_arr m ρ c 1).trans ((funext fun i => (dat0 (V7 m ρ) c).arrAt_apply_of_forall_not_mem 1 cfg0.N i
      (fun t _ hf => absurd ((column_never_flushed0 t).symm.trans hf) Bool.false_ne_true)).trans
    ((A_eq0 (V7 m ρ) c 1).trans (W7_v35 m ρ c)))
theorem W8_arg1 : W8 m ρ c (Proc.devRef .tc main_arg1) = table m c :=
  (W8_of_ne m ρ c main_arg1 (by decide)).trans (W7_arg1 m ρ c)

/-- The first layer, read off the first region's array. -/
theorem lay1 : layerOf (F := F) (W8 m ρ c (Proc.devRef .tc main_v7)) (W8 m ρ c (Proc.devRef .tc main_v43)) = lay m c (table m c) :=
  (congrArg₂ (layerOf (F := F)) (W8_v7 m ρ c) (W8_v43 m ρ c)).trans (layer_eq _ _ _ _).symm

/-! ### At the second region's entry -/

theorem W9_v47 : W9 m ρ c (Proc.devRef .tc main_v47) = lay m c (table m c) := (s1_v47 (W8 m ρ c)).trans (lay1 m ρ c)
theorem W9_v54 : W9 m ρ c (Proc.devRef .tc main_v54) = Stages.gathered (F := F) (srcV m c) (lay m c (table m c)) :=
  (s1_v54 (W8 m ρ c)).trans (congrArg₂ (Stages.gathered (F := F)) (W8_v34 m ρ c) (lay1 m ρ c))
theorem W9_v7 : W9 m ρ c (Proc.devRef .tc main_v7) = dstV m c :=
  (s1_v7 (W8 m ρ c)).trans (W8_v7 m ρ c)
theorem W9_v34 : W9 m ρ c (Proc.devRef .tc main_v34) = srcV m c :=
  (s1_v34 (W8 m ρ c)).trans (W8_v34 m ρ c)
theorem W9_v35 : W9 m ρ c (Proc.devRef .tc main_v35) = colV m c :=
  (s1_v35 (W8 m ρ c)).trans (W8_v35 m ρ c)
theorem W9_arg1 : W9 m ρ c (Proc.devRef .tc main_arg1) = table m c :=
  (s1_arg1 (W8 m ρ c)).trans (W8_arg1 m ρ c)

/-! ### At the second region's exit -/

theorem W10_v55 : W10 m ρ c (Proc.devRef .tc main_v55)
    = Stages.mulRows (F := F) (Stages.gathered (F := F) (srcV m c) (lay m c (table m c))) (colV m c) :=
  (W10_arr m ρ c 2).trans ((Region1.array_eq (V9 m ρ) c).trans
    (congrArg₂ (Stages.mulRows (F := F)) (W9_v54 m ρ c) (W9_v35 m ρ c)))
theorem W10_v7 : W10 m ρ c (Proc.devRef .tc main_v7) = dstV m c :=
  (W10_of_ne m ρ c main_v7 (by decide)).trans (W9_v7 m ρ c)
theorem W10_v34 : W10 m ρ c (Proc.devRef .tc main_v34) = srcV m c :=
  (W10_of_ne m ρ c main_v34 (by decide)).trans (W9_v34 m ρ c)
/-- The weight column is the second region's input window 1 too. -/
theorem W10_v35 : W10 m ρ c (Proc.devRef .tc main_v35) = colV m c :=
  (W10_arr m ρ c 1).trans ((funext fun i => (dat1 (V9 m ρ) c).arrAt_apply_of_forall_not_mem 1 cfg1.N i
      (fun t _ hf => absurd ((column_never_flushed1 t).symm.trans hf) Bool.false_ne_true)).trans
    ((A_eq1 (V9 m ρ) c 1).trans (W9_v35 m ρ c)))
theorem W10_arg1 : W10 m ρ c (Proc.devRef .tc main_arg1) = table m c :=
  (W10_of_ne m ρ c main_arg1 (by decide)).trans (W9_arg1 m ρ c)
theorem W10_v47 : W10 m ρ c (Proc.devRef .tc main_v47) = lay m c (table m c) :=
  (W10_of_ne m ρ c main_v47 (by decide)).trans (W9_v47 m ρ c)

/-- The second layer, read off the second region's array. -/
theorem lay2 : layerOf (F := F) (W10 m ρ c (Proc.devRef .tc main_v7)) (W10 m ρ c (Proc.devRef .tc main_v55)) = lay m c (lay m c (table m c)) :=
  (congrArg₂ (layerOf (F := F)) (W10_v7 m ρ c) (W10_v55 m ρ c)).trans (layer_eq _ _ _ _).symm

/-! ### At the third region's entry -/

theorem W11_v59 : W11 m ρ c (Proc.devRef .tc main_v59) = lay m c (lay m c (table m c)) := (s2_v59 (W10 m ρ c)).trans (lay2 m ρ c)
theorem W11_v66 : W11 m ρ c (Proc.devRef .tc main_v66) = Stages.gathered (F := F) (srcV m c) (lay m c (lay m c (table m c))) :=
  (s2_v66 (W10 m ρ c)).trans (congrArg₂ (Stages.gathered (F := F)) (W10_v34 m ρ c) (lay2 m ρ c))
theorem W11_v7 : W11 m ρ c (Proc.devRef .tc main_v7) = dstV m c :=
  (s2_v7 (W10 m ρ c)).trans (W10_v7 m ρ c)
theorem W11_v35 : W11 m ρ c (Proc.devRef .tc main_v35) = colV m c :=
  (s2_v35 (W10 m ρ c)).trans (W10_v35 m ρ c)
theorem W11_arg1 : W11 m ρ c (Proc.devRef .tc main_arg1) = table m c :=
  (s2_arg1 (W10 m ρ c)).trans (W10_arg1 m ρ c)
theorem W11_v47 : W11 m ρ c (Proc.devRef .tc main_v47) = lay m c (table m c) :=
  (s2_v47 (W10 m ρ c)).trans (W10_v47 m ρ c)

/-! ### At the third region's exit -/

theorem W12_v67 : W12 m ρ c (Proc.devRef .tc main_v67)
    = Stages.mulRows (F := F) (Stages.gathered (F := F) (srcV m c) (lay m c (lay m c (table m c)))) (colV m c) :=
  (W12_arr m ρ c 2).trans ((Region2.array_eq (V11 m ρ) c).trans
    (congrArg₂ (Stages.mulRows (F := F)) (W11_v66 m ρ c) (W11_v35 m ρ c)))
theorem W12_v7 : W12 m ρ c (Proc.devRef .tc main_v7) = dstV m c :=
  (W12_of_ne m ρ c main_v7 (by decide)).trans (W11_v7 m ρ c)
theorem W12_arg1 : W12 m ρ c (Proc.devRef .tc main_arg1) = table m c :=
  (W12_of_ne m ρ c main_arg1 (by decide)).trans (W11_arg1 m ρ c)
theorem W12_v47 : W12 m ρ c (Proc.devRef .tc main_v47) = lay m c (table m c) :=
  (W12_of_ne m ρ c main_v47 (by decide)).trans (W11_v47 m ρ c)
theorem W12_v59 : W12 m ρ c (Proc.devRef .tc main_v59) = lay m c (lay m c (table m c)) :=
  (W12_of_ne m ρ c main_v59 (by decide)).trans (W11_v59 m ρ c)

/-- The third layer, read off the third region's array. -/
theorem lay3 : layerOf (F := F) (W12 m ρ c (Proc.devRef .tc main_v7)) (W12 m ρ c (Proc.devRef .tc main_v67)) = lay m c (lay m c (lay m c (table m c))) :=
  (congrArg₂ (layerOf (F := F)) (W12_v7 m ρ c) (W12_v67 m ρ c)).trans (layer_eq _ _ _ _).symm

/-! ### At the last region's entry: the four tables, each padded to 155,648 rows -/

theorem W20_v72 : W20 m ρ c (Proc.devRef .tc main_v72) = Stages.padRows (F := F) (table m c) :=
  (s3_v72 (W12 m ρ c)).trans (congrArg (Stages.padRows (F := F)) (W12_arg1 m ρ c))
theorem W20_v73 : W20 m ρ c (Proc.devRef .tc main_v73) = Stages.padRows (F := F) (lay m c (table m c)) :=
  (s3_v73 (W12 m ρ c)).trans (congrArg (Stages.padRows (F := F)) (W12_v47 m ρ c))
theorem W20_v74 : W20 m ρ c (Proc.devRef .tc main_v74) = Stages.padRows (F := F) (lay m c (lay m c (table m c))) :=
  (s3_v74 (W12 m ρ c)).trans (congrArg (Stages.padRows (F := F)) (W12_v59 m ρ c))
theorem W20_v75 : W20 m ρ c (Proc.devRef .tc main_v75) = Stages.padRows (F := F) (lay m c (lay m c (lay m c (table m c)))) :=
  (s3_v75 (W12 m ρ c)).trans (congrArg (Stages.padRows (F := F)) (lay3 m ρ c))

/-! ### At the last region's exit: its output array is the four tables' mean -/

theorem W21_v76 : W21 m ρ c (Proc.devRef .tc main_v76)
    = Stages.sumRows (F := F) (Stages.padRows (F := F) (table m c)) (Stages.padRows (F := F) (lay m c (table m c)))
        (Stages.padRows (F := F) (lay m c (lay m c (table m c)))) (Stages.padRows (F := F) (lay m c (lay m c (lay m c (table m c))))) :=
  (W21_arr m ρ c 4).trans ((Region3.array_eq (V20 m ρ) c).trans
    (congr (congr (congrArg₂ (Stages.sumRows (F := F)) (W20_v72 m ρ c) (W20_v73 m ρ c)) (W20_v74 m ρ c)) (W20_v75 m ρ c)))

/-! ### The results -/

/-- The first result buffer at the end of the run. -/
theorem result0_eq : W22 m ρ c (Proc.devRef .tc main_v78)
    = Stages.result0 (F := F) (val_main_v7 (F := F) (edges m c)) (val_main_v6 (F := F) (edges m c)) (val_main_v32 (F := F) (edges m c)) (table m c) :=
  (s4_v78 (W21 m ρ c)).trans (congrArg (fun a => extractStridedSlice S100000x64 ![0, 0] (extractStridedSlice S150000x64 ![0, 0] a slices_S155648x64_S150000x64_0_0) slices_S150000x64_S100000x64_0_0) (W21_v76 m ρ c))

/-- The second result buffer at the end of the run. -/
theorem result1_eq : W22 m ρ c (Proc.devRef .tc main_v79)
    = Stages.result1 (F := F) (val_main_v7 (F := F) (edges m c)) (val_main_v6 (F := F) (edges m c)) (val_main_v32 (F := F) (edges m c)) (table m c) :=
  (s4_v79 (W21 m ρ c)).trans (congrArg (fun a => extractStridedSlice S50000x64 ![100000, 0] (extractStridedSlice S150000x64 ![0, 0] a slices_S155648x64_S150000x64_0_0) slices_S150000x64_S50000x64_100000_0) (W21_v76 m ρ c))

end Run

end Cert.KernelIdeal.Fold

end
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.BridgeMessages.lean ====
/-
  One layer of the kernel program is one layer of the reference, for every node table.

  Both programs gather, for every directed edge e, row src[e] of the node table (a negative index counted from the end,
  then clamped into the table), scale it by the weight of e and add it into row dst[e] of a zero table. The kernel program
  does the gather and the product over 2,015,232 rows, the edges padded by 15,232 rows of source index 0 and weight 0,
  and keeps the first 2,000,000 rows of the product. Row e < 2,000,000 of a padded array is row e of the array it pads,
  and row e of a row gather depends only on the start index of row e: so the kept rows are the reference's messages,
  index by index, and the two accumulating scatters (one set of dimension numbers) then add equal updates at equal rows.
-/
import proofs.«104251_j75531294867819_1_alg».proof.Proof.Stages
import proofs.«104251_j75531294867819_1_alg».proof.Proof.Gen.ReferenceIdeal
import proofs.«104251_j75531294867819_1_alg».proof.Proof.LibGatherScatter
import Idealize.ShloMosaic.Lib.KernelVsHost

noncomputable section

namespace Cert.Bridge

open Idealize.ShloMosaic Idealize.ShloMosaic.TcCoe
open Idealize.ShloMosaic.ValueIdx Idealize.ShloMosaic.StableHlo.Predicate
open Cert.LibGatherScatter

variable {F : FTy → Type} [FloatOps F]

/-! ## The reference's layer as a function of the edge arrays and the node table -/

section Reference
open Cert.ReferenceIdeal Cert.ReferenceIdeal.Gen

/-- The reference's start indices: a negative source index has 150,000 added, and the result is laid out as a column. -/
def refRowIdx (src : (⟨S2000000, .i32⟩ : BufTy).Contents (Elt F)) : (⟨S2000000x1, .i32⟩ : BufTy).Contents (Elt F) :=
  broadcastInDim S2000000x1 ![0] bcast_S2000000_S2000000x1_0
    (select (cmpi .slt src (broadcastInDim S2000000 ![] bcast_S_S2000000 (constantI S_ 32 0#32)))
      (addi src (broadcastInDim S2000000 ![] bcast_S_S2000000 (constantI S_ 32 150000#32))) src)

/-- The reference's messages: row src[e] of the node table times the weight of edge e, the weight laid out as a column
    and repeated along the 64 features. -/
def refMessages (src : (⟨S2000000, .i32⟩ : BufTy).Contents (Elt F)) (norm : (⟨S2000000, .f32⟩ : BufTy).Contents (Elt F))
    (X : (⟨S150000x64, .f32⟩ : BufTy).Contents (Elt F)) : (⟨S2000000x64, .f32⟩ : BufTy).Contents (Elt F) :=
  mulf (Host.gather gather_S150000x64_S2000000x1_S2000000x64_1_0_n_n_0_1_164 X (refRowIdx (F := F) src))
    (broadcastInDim S2000000x64 ![0, 1] bcast_S2000000x1_S2000000x64_0_1
      (broadcastInDim S2000000x1 ![0] bcast_S2000000_S2000000x1_0 norm))

/-- One layer of the reference: the messages added, row e into row dst[e], into a zero table. -/
def refLayer (dst src : (⟨S2000000, .i32⟩ : BufTy).Contents (Elt F)) (norm : (⟨S2000000, .f32⟩ : BufTy).Contents (Elt F))
    (X : (⟨S150000x64, .f32⟩ : BufTy).Contents (Elt F)) : (⟨S150000x64, .f32⟩ : BufTy).Contents (Elt F) :=
  Host.scatterAdd scatter_S150000x64_S2000000x1_S2000000x64_1_0_0_1
    (broadcastInDim S150000x64 ![] bcast_S_S150000x64 (constant (F := F) S_ .f32 0x00000000#32))
    (broadcastInDim S2000000x1 ![0] bcast_S2000000_S2000000x1_0 dst)
    (refMessages (F := F) src norm X)

/-- The reference's start index of edge e: the source index of e, with 150,000 added when it is negative. -/
theorem refRowIdx_apply (src : (⟨S2000000, .i32⟩ : BufTy).Contents (Elt F)) (e : Fin 2000000) :
    refRowIdx (F := F) src (ixP e)
      = Scalar.select (IntOp.cmpi .slt (src (ix1 e)) 0#32) (IntOp.addi (src (ix1 e)) 150000#32) (src (ix1 e)) := by
  unfold refRowIdx
  rw [bcast_col1_ix1, normIndex_apply]
  rfl

/-- The reference's weight at row e, any feature: the weight of edge e. -/
theorem refWeight_apply (norm : (⟨S2000000, .f32⟩ : BufTy).Contents (Elt F)) (e : Fin 2000000) (q : Fin 64) :
    broadcastInDim S2000000x64 ![0, 1] bcast_S2000000x1_S2000000x64_0_1
      (broadcastInDim S2000000x1 ![0] bcast_S2000000_S2000000x1_0 norm) (ix2 e q) = norm (ix1 e) := by
  rw [broadcastInDim_apply _ bcast_S2000000x1_S2000000x64_0_1 _ (ix2 e q) (ixP e) (fun a => match a with
    | ⟨0, _⟩ => by show e.val = if (2000000 : Nat) = 1 then 0 else e.val; rw [if_neg (by decide)]
    | ⟨1, _⟩ => by show 0 = if (1 : Nat) = 1 then 0 else q.val; rw [if_pos rfl])]
  exact bcast_col1_ix1 bcast_S2000000_S2000000x1_0 norm e

/-- The reference's messages at row e, feature q. -/
theorem refMessages_apply (src : (⟨S2000000, .i32⟩ : BufTy).Contents (Elt F)) (norm : (⟨S2000000, .f32⟩ : BufTy).Contents (Elt F))
    (X : (⟨S150000x64, .f32⟩ : BufTy).Contents (Elt F)) (e : Fin 2000000) (q : Fin 64) :
    refMessages (F := F) src norm X (ix2 e q)
      = FloatOps.mulf
          (X (ix2 ⟨min (Scalar.select (IntOp.cmpi .slt (src (ix1 e)) 0#32) (IntOp.addi (src (ix1 e)) 150000#32) (src (ix1 e))).toInt.toNat (150000 - 1),
            by omega⟩ q))
          (norm (ix1 e)) := by
  unfold refMessages
  show FloatOps.mulf (Host.gather _ X (refRowIdx (F := F) src) (ix2 e q)) (broadcastInDim _ _ _ _ (ix2 e q)) = _
  rw [refWeight_apply,
    rowGather_apply (N := 150000) (C := 64) (n := 2000000) gather_S150000x64_S2000000x1_S2000000x64_1_0_n_n_0_1_164
      rfl rfl rfl rfl rfl rfl rfl (by decide) X (refRowIdx (F := F) src) e q]
  simp only [refRowIdx_apply]

end Reference

/-! ## The kernel program's messages at an index -/

section Kernel
open Cert.KernelIdeal Cert.KernelIdeal.Gen Cert.KernelIdeal.Stages

/-- Row e of the 2,000,000 edges, as a row of the 2,015,232 padded ones. -/
abbrev padRow (e : Fin 2000000) : Fin 2015232 := ⟨e.val, by have := e.isLt; omega⟩

/-- The padded source indices at an edge's row: the edge's source index. -/
theorem srcPad_apply (src : (⟨S2000000, .i32⟩ : BufTy).Contents (Elt F)) (e : Fin 2000000) :
    srcPad (F := F) src (ix1 (padRow e)) = src (ix1 e) := by
  unfold srcPad
  exact pad_apply_of_inside ![0] ![15232] ![0] src _ pads_S2000000_S2015232_0152320 h_S_ (ix1 (padRow e)) (ix1 e)
    (fun a => match a with
      | ⟨0, _⟩ => by show e.val = 0 + e.val * (0 + 1); omega)

/-- The padded weight column at an edge's row: the edge's weight. -/
theorem normCol_apply (norm : (⟨S2000000, .f32⟩ : BufTy).Contents (Elt F)) (e : Fin 2000000) (q : Fin 64) :
    normCol (F := F) norm (colIdx (ix2 (padRow e) q)) = norm (ix1 e) := by
  unfold normCol
  rw [shapeCast_apply _ shapeCasts_S2015232_S2015232x1 (colIdx (ix2 (padRow e) q)) (ix1 (padRow e)) (by
    rw [Shape.rowMajor_val_one, Shape.rowMajor_val_two]
    show e.val = e.val * 1 + 0
    omega)]
  exact pad_apply_of_inside ![0] ![15232] ![0] norm _ pads_S2000000_S2015232_0152320 h_S_ (ix1 (padRow e)) (ix1 e)
    (fun a => match a with
      | ⟨0, _⟩ => by show e.val = 0 + e.val * (0 + 1); omega)

/-- The kernel program's start index at an edge's row: the source index of the edge, with 150,000 added when it is
    negative. -/
theorem rowIdx_apply (src : (⟨S2000000, .i32⟩ : BufTy).Contents (Elt F)) (e : Fin 2000000) :
    rowIdx (F := F) (srcPad (F := F) src) (ixP (padRow e))
      = Scalar.select (IntOp.cmpi .slt (src (ix1 e)) 0#32) (IntOp.addi (src (ix1 e)) 150000#32) (src (ix1 e)) := by
  unfold rowIdx
  rw [bcast_col1_ix1, normIndex_apply, srcPad_apply]
  rfl

/-- The kernel program's messages at row e, feature q. -/
theorem messages_apply (src : (⟨S2000000, .i32⟩ : BufTy).Contents (Elt F)) (norm : (⟨S2000000, .f32⟩ : BufTy).Contents (Elt F))
    (X : (⟨S150000x64, .f32⟩ : BufTy).Contents (Elt F)) (e : Fin 2000000) (q : Fin 64) :
    messages (F := F) (srcPad (F := F) src) (normCol (F := F) norm) X (ix2 e q)
      = FloatOps.mulf
          (X (ix2 ⟨min (Scalar.select (IntOp.cmpi .slt (src (ix1 e)) 0#32) (IntOp.addi (src (ix1 e)) 150000#32) (src (ix1 e))).toInt.toNat (150000 - 1),
            by omega⟩ q))
          (norm (ix1 e)) := by
  unfold messages
  rw [extractStridedSlice_apply ![0, 0] _ slices_S2015232x64_S2000000x64_0_0 (ix2 e q) (ix2 (padRow e) q) (fun a => match a with
    | ⟨0, _⟩ => by show e.val = 0 + e.val; omega
    | ⟨1, _⟩ => by show q.val = 0 + q.val; omega)]
  show FloatOps.mulf (Host.gather _ X (rowIdx (F := F) (srcPad (F := F) src)) (ix2 (padRow e) q))
    (normCol (F := F) norm (colIdx (ix2 (padRow e) q))) = _
  rw [normCol_apply,
    rowGather_apply (N := 150000) (C := 64) (n := 2015232) gather_S150000x64_S2015232x1_S2015232x64_1_0_n_n_0_1_164
      rfl rfl rfl rfl rfl rfl rfl (by decide) X (rowIdx (F := F) (srcPad (F := F) src)) (padRow e) q]
  simp only [rowIdx_apply]

end Kernel

/-! ## The layers agree -/

section Agree
open Cert.ReferenceIdeal

/-- The kernel program's messages are the reference's, for every node table. -/
theorem messages_eq (src : (⟨S2000000, .i32⟩ : BufTy).Contents (Elt F)) (norm : (⟨S2000000, .f32⟩ : BufTy).Contents (Elt F))
    (X : (⟨S150000x64, .f32⟩ : BufTy).Contents (Elt F)) :
    Cert.KernelIdeal.Stages.messages (F := F) (Cert.KernelIdeal.Stages.srcPad (F := F) src)
        (Cert.KernelIdeal.Stages.normCol (F := F) norm) X
      = refMessages (F := F) src norm X := by
  funext i
  obtain ⟨e, q, rfl⟩ : ∃ (e : Fin 2000000) (q : Fin 64), i = ix2 e q := ⟨i 0, i 1, eq_ix2 i⟩
  rw [messages_apply, refMessages_apply]

/-- The two programs' accumulating scatters have one set of dimension numbers. -/
theorem scatterDims_eq :
    Cert.KernelIdeal.scatter_S150000x64_S2000000x1_S2000000x64_1_0_0_1
      = Cert.ReferenceIdeal.scatter_S150000x64_S2000000x1_S2000000x64_1_0_0_1 := rfl

/-- One layer of the kernel program is one layer of the reference, for every node table. -/
theorem layer_eq (dst src : (⟨S2000000, .i32⟩ : BufTy).Contents (Elt F)) (norm : (⟨S2000000, .f32⟩ : BufTy).Contents (Elt F))
    (X : (⟨S150000x64, .f32⟩ : BufTy).Contents (Elt F)) :
    Cert.KernelIdeal.Stages.layer (F := F) dst (Cert.KernelIdeal.Stages.srcPad (F := F) src)
        (Cert.KernelIdeal.Stages.normCol (F := F) norm) X
      = refLayer (F := F) dst src norm X := by
  unfold Cert.KernelIdeal.Stages.layer refLayer
  rw [messages_eq, scatterDims_eq]

end Agree

end Cert.Bridge

end
-- ==== Proof.BridgeLayers.lean ====
/-
  The kernel program's three layers are the reference's three layers.

  The reference computes each layer by its own, textually identical, operations: a start-index column, the weights laid
  out as a column and repeated along the features, a zero table, the destination column. Each is one layer function of the
  shared edge arrays applied to the table before it, and so is each layer of the kernel program.
-/
import proofs.«104251_j75531294867819_1_alg».proof.Proof.BridgeMessages
import proofs.«104251_j75531294867819_1_alg».proof.Proof.RefRead

noncomputable section

namespace Cert.Bridge

open Idealize.ShloMosaic Idealize.ShloMosaic.TcCoe
open Cert.ReferenceIdeal Cert.ReferenceIdeal.ReadP

variable {F : FTy → Type} [FloatOps F]

/-- The reference's first layer is the layer function at the input table. -/
theorem refLayer_first (x0 : (⟨S2x1000000, .i32⟩ : BufTy).Contents (Elt F)) (x1 : (⟨S150000x64, .f32⟩ : BufTy).Contents (Elt F)) :
    val_main_v45 (F := F) x0 x1
      = refLayer (F := F) (val_main_v7 (F := F) x0) (val_main_v6 (F := F) x0) (val_main_v32 (F := F) x0) x1 := rfl

/-- The reference's second layer is the layer function at the first layer. -/
theorem refLayer_second (x0 : (⟨S2x1000000, .i32⟩ : BufTy).Contents (Elt F)) (x1 : (⟨S150000x64, .f32⟩ : BufTy).Contents (Elt F)) :
    val_main_v59 (F := F) x0 x1
      = refLayer (F := F) (val_main_v7 (F := F) x0) (val_main_v6 (F := F) x0) (val_main_v32 (F := F) x0)
          (val_main_v45 (F := F) x0 x1) := rfl

/-- The reference's third layer is the layer function at the second layer. -/
theorem refLayer_third (x0 : (⟨S2x1000000, .i32⟩ : BufTy).Contents (Elt F)) (x1 : (⟨S150000x64, .f32⟩ : BufTy).Contents (Elt F)) :
    val_main_v73 (F := F) x0 x1
      = refLayer (F := F) (val_main_v7 (F := F) x0) (val_main_v6 (F := F) x0) (val_main_v32 (F := F) x0)
          (val_main_v59 (F := F) x0 x1) := rfl

/-- The kernel program's layer at the input table is the reference's first layer. -/
theorem layer_first (x0 : (⟨S2x1000000, .i32⟩ : BufTy).Contents (Elt F)) (x1 : (⟨S150000x64, .f32⟩ : BufTy).Contents (Elt F)) :
    Cert.KernelIdeal.Stages.layer (F := F) (val_main_v7 (F := F) x0)
        (Cert.KernelIdeal.Stages.srcPad (F := F) (val_main_v6 (F := F) x0))
        (Cert.KernelIdeal.Stages.normCol (F := F) (val_main_v32 (F := F) x0)) x1
      = val_main_v45 (F := F) x0 x1 :=
  (layer_eq _ _ _ _).trans (refLayer_first x0 x1).symm

/-- The kernel program's layer at the reference's first layer is the reference's second layer. -/
theorem layer_second (x0 : (⟨S2x1000000, .i32⟩ : BufTy).Contents (Elt F)) (x1 : (⟨S150000x64, .f32⟩ : BufTy).Contents (Elt F)) :
    Cert.KernelIdeal.Stages.layer (F := F) (val_main_v7 (F := F) x0)
        (Cert.KernelIdeal.Stages.srcPad (F := F) (val_main_v6 (F := F) x0))
        (Cert.KernelIdeal.Stages.normCol (F := F) (val_main_v32 (F := F) x0)) (val_main_v45 (F := F) x0 x1)
      = val_main_v59 (F := F) x0 x1 :=
  (layer_eq _ _ _ _).trans (refLayer_second x0 x1).symm

/-- The kernel program's layer at the reference's second layer is the reference's third layer. -/
theorem layer_third (x0 : (⟨S2x1000000, .i32⟩ : BufTy).Contents (Elt F)) (x1 : (⟨S150000x64, .f32⟩ : BufTy).Contents (Elt F)) :
    Cert.KernelIdeal.Stages.layer (F := F) (val_main_v7 (F := F) x0)
        (Cert.KernelIdeal.Stages.srcPad (F := F) (val_main_v6 (F := F) x0))
        (Cert.KernelIdeal.Stages.normCol (F := F) (val_main_v32 (F := F) x0)) (val_main_v59 (F := F) x0 x1)
      = val_main_v73 (F := F) x0 x1 :=
  (layer_eq _ _ _ _).trans (refLayer_third x0 x1).symm

end Cert.Bridge

end
-- ==== Proof.BridgeMean.lean ====
/-
  The kernel program's mean table at an index. The four node tables are padded by 5,648 zero rows to 155,648 rows, summed
  left to right and scaled by the word of 0.25, and the first 150,000 rows are kept: row r < 150,000 of a padded table is
  row r of the table it pads, so a kept element is the scaled sum of the four tables' elements at its own index.
-/
import proofs.«104251_j75531294867819_1_alg».proof.Proof.Stages
import Idealize.ShloMosaic.Lib.KernelVsHost

noncomputable section

namespace Cert.Bridge

open Idealize.ShloMosaic Idealize.ShloMosaic.TcCoe Idealize.ShloMosaic.ValueIdx
open Cert.KernelIdeal Cert.KernelIdeal.Gen Cert.KernelIdeal.Stages

variable {F : FTy → Type} [FloatOps F]

/-- Row r of the 150,000 nodes, as a row of the 155,648 padded ones. -/
abbrev padNode (r : Fin 150000) : Fin 155648 := ⟨r.val, by have := r.isLt; omega⟩

/-- A padded node table at a node's row: the table there. -/
theorem padRows_apply (A : (⟨S150000x64, .f32⟩ : BufTy).Contents (Elt F)) (r : Fin 150000) (q : Fin 64) :
    padRows (F := F) A (ix2 (padNode r) q) = A (ix2 r q) := by
  unfold padRows
  exact pad_apply_of_inside ![0, 0] ![5648, 0] ![0, 0] A _ pads_S150000x64_S155648x64_056480_000 h_S_
    (ix2 (padNode r) q) (ix2 r q) (fun a => match a with
      | ⟨0, _⟩ => by show r.val = 0 + r.val * (0 + 1); omega
      | ⟨1, _⟩ => by show q.val = 0 + q.val * (0 + 1); omega)

/-- The kept rows of the scaled sum of four padded tables, at node r and feature q: the four tables' elements there, summed
    left to right and scaled by the word of 0.25. -/
theorem meanRows_apply (A B C D : (⟨S150000x64, .f32⟩ : BufTy).Contents (Elt F)) (r : Fin 150000) (q : Fin 64) :
    extractStridedSlice S150000x64 ![0, 0]
        (sumRows (F := F) (padRows (F := F) A) (padRows (F := F) B) (padRows (F := F) C) (padRows (F := F) D))
        slices_S155648x64_S150000x64_0_0 (ix2 r q)
      = FloatOps.mulf
          (FloatOps.addf (FloatOps.addf (FloatOps.addf (A (ix2 r q)) (B (ix2 r q))) (C (ix2 r q))) (D (ix2 r q)))
          (FloatOps.ofBits .f32 0x3E800000#32) := by
  rw [extractStridedSlice_apply ![0, 0] _ slices_S155648x64_S150000x64_0_0 (ix2 r q) (ix2 (padNode r) q) (fun a => match a with
    | ⟨0, _⟩ => by show r.val = 0 + r.val; omega
    | ⟨1, _⟩ => by show q.val = 0 + q.val; omega)]
  show FloatOps.mulf (FloatOps.addf (FloatOps.addf (FloatOps.addf (padRows (F := F) A (ix2 (padNode r) q))
      (padRows (F := F) B (ix2 (padNode r) q))) (padRows (F := F) C (ix2 (padNode r) q))) (padRows (F := F) D (ix2 (padNode r) q)))
    (FloatOps.ofBits .f32 0x3E800000#32) = _
  rw [padRows_apply, padRows_apply, padRows_apply, padRows_apply]

end Cert.Bridge

end
-- ==== Proof.BridgeConsts.lean ====
/-
  The two float words of the mean, as the extended reals they denote: the kernel program scales the sum of the four
  tables by the word of 0.25, the reference divides it by the word of 4.
-/
import Idealize.ShloMosaic.PureOps.Ideal

noncomputable section

namespace Cert.Bridge

open Idealize.ShloMosaic

/-- The word 0x3E800000, sign 0, exponent 125, mantissa 0, denotes the real 1/4. -/
theorem ofBits_quarter : Ideal.ofBits .f32 0x3E800000#32 = ((1 / 4 : ℝ) : EReal) := by
  simp only [Ideal.ofBits, Ideal.ieee, BitVec.reduceExtractLsb', BitVec.toNat_ofNat, Nat.reducePow,
    Nat.reduceMod, Nat.add_one_sub_one, Nat.reduceEqDiff, ↓reduceIte, OfNat.ofNat_ne_zero, Nat.reduceAdd,
    BitVec.reduceBEq, Bool.false_eq_true, Nat.zero_mod, add_zero, Nat.cast_ofNat, one_mul, Int.reducePow, Int.reduceSub,
    zpow_neg, zpow_ofNat, one_div, EReal.coe_eq_coe_iff]
  norm_num

/-- The word 0x40800000, sign 0, exponent 129, mantissa 0, denotes the real 4. -/
theorem ofBits_four : Ideal.ofBits .f32 0x40800000#32 = ((4 : ℝ) : EReal) := by
  simp only [Ideal.ofBits, Ideal.ieee, BitVec.reduceExtractLsb', BitVec.toNat_ofNat, Nat.reducePow,
    Nat.reduceMod, Nat.add_one_sub_one, Nat.reduceEqDiff, ↓reduceIte, OfNat.ofNat_ne_zero, Nat.reduceAdd,
    BitVec.reduceBEq, Bool.false_eq_true, Nat.zero_mod, add_zero, Nat.cast_ofNat, one_mul, Int.reducePow, Int.reduceSub,
    zpow_neg, zpow_ofNat, EReal.coe_eq_coe_iff]
  norm_num

/-- Dividing an extended real by the word of 4 is scaling it by the word of 0.25. -/
theorem div_four_eq_mul_quarter (x : EReal) :
    Ideal.div x (Ideal.ofBits .f32 0x40800000#32) = x * Ideal.ofBits .f32 0x3E800000#32 := by
  rw [ofBits_four, ofBits_quarter, Ideal.div_coe (by norm_num : (4 : ℝ) ≠ 0)]

end Cert.Bridge

end
-- ==== Proof.Bridge.lean ====
/-
  The kernel program's staged value is the reference's, over the extended reals.

  The three layers of the kernel program are the reference's three layers (one layer function of the shared edge arrays,
  applied to the table before it). The kernel program's mean scales the left-to-right sum of the input table and the
  three layers by the word of 0.25, the reference divides the same sum by the word of 4: on every extended real the
  quotient by the real 4 is the product with the real 1/4. The two results are the same rows of that one table.
-/
import proofs.«104251_j75531294867819_1_alg».proof.Proof.Stages
import proofs.«104251_j75531294867819_1_alg».proof.Proof.RefRead
import proofs.«104251_j75531294867819_1_alg».proof.Proof.BridgeLayers
import proofs.«104251_j75531294867819_1_alg».proof.Proof.BridgeMean
import proofs.«104251_j75531294867819_1_alg».proof.Proof.BridgeConsts
import Idealize.ShloMosaic.PureOps.Ideal

noncomputable section

namespace Cert.Bridge

open Idealize.ShloMosaic Idealize.ShloMosaic.TcCoe
open Cert.KernelIdeal (Stages.result0 Stages.result1)

/-- The mean tables agree: at every node and feature both are the sum of the input table and the three layers, taken left
    to right, times the real 1/4. -/
theorem meanTable_eq (x0 : (⟨Cert.ReferenceIdeal.S2x1000000, .i32⟩ : BufTy).Contents (Elt Ideal))
    (x1 : (⟨Cert.ReferenceIdeal.S150000x64, .f32⟩ : BufTy).Contents (Elt Ideal)) :
    Cert.KernelIdeal.Stages.meanTable (F := Ideal) (Cert.ReferenceIdeal.ReadP.val_main_v7 (F := Ideal) x0)
        (Cert.ReferenceIdeal.ReadP.val_main_v6 (F := Ideal) x0) (Cert.ReferenceIdeal.ReadP.val_main_v32 (F := Ideal) x0) x1
      = Cert.ReferenceIdeal.ReadP.val_main_v76 (F := Ideal) x0 x1 := by
  unfold Cert.KernelIdeal.Stages.meanTable
  rw [layer_first, layer_second, layer_third]
  funext i
  obtain ⟨r, q, rfl⟩ : ∃ (r : Fin 150000) (q : Fin 64), i = ValueIdx.ix2 r q := ⟨i 0, i 1, ValueIdx.eq_ix2 i⟩
  rw [meanRows_apply, Cert.ReferenceIdeal.ReadP.val_main_v76_apply, Cert.ReferenceIdeal.ReadP.val_main_v74_apply,
    Cert.ReferenceIdeal.ReadP.val_main_v60_apply, Cert.ReferenceIdeal.ReadP.val_main_v46_apply,
    Cert.ReferenceIdeal.ReadP.val_main_v75_apply, Cert.ReferenceIdeal.ReadP.val_main_cst_17_apply]
  exact (div_four_eq_mul_quarter _).symm

/-- The first results agree: the first 100,000 rows of the mean table. -/
theorem result0_eq (x0 : (⟨Cert.ReferenceIdeal.S2x1000000, .i32⟩ : BufTy).Contents (Elt Ideal))
    (x1 : (⟨Cert.ReferenceIdeal.S150000x64, .f32⟩ : BufTy).Contents (Elt Ideal)) :
    Cert.KernelIdeal.Stages.result0 (F := Ideal) (Cert.ReferenceIdeal.ReadP.val_main_v7 (F := Ideal) x0)
        (Cert.ReferenceIdeal.ReadP.val_main_v6 (F := Ideal) x0) (Cert.ReferenceIdeal.ReadP.val_main_v32 (F := Ideal) x0) x1
      = Cert.ReferenceIdeal.ReadP.val_main_v77 (F := Ideal) x0 x1 := by
  unfold Cert.KernelIdeal.Stages.result0 Cert.ReferenceIdeal.ReadP.val_main_v77
  rw [meanTable_eq] <;> rfl

/-- The second results agree: the last 50,000 rows of the mean table. -/
theorem result1_eq (x0 : (⟨Cert.ReferenceIdeal.S2x1000000, .i32⟩ : BufTy).Contents (Elt Ideal))
    (x1 : (⟨Cert.ReferenceIdeal.S150000x64, .f32⟩ : BufTy).Contents (Elt Ideal)) :
    Cert.KernelIdeal.Stages.result1 (F := Ideal) (Cert.ReferenceIdeal.ReadP.val_main_v7 (F := Ideal) x0)
        (Cert.ReferenceIdeal.ReadP.val_main_v6 (F := Ideal) x0) (Cert.ReferenceIdeal.ReadP.val_main_v32 (F := Ideal) x0) x1
      = Cert.ReferenceIdeal.ReadP.val_main_v78 (F := Ideal) x0 x1 := by
  unfold Cert.KernelIdeal.Stages.result1 Cert.ReferenceIdeal.ReadP.val_main_v78
  rw [meanTable_eq] <;> rfl

end Cert.Bridge

end
-- ==== Proof.lean ====
/-
  The certificate: a three-layer message-passing kernel against its plain reference, over the extended reals.

  Both programs build, from an int32 edge list, the symmetrised edge ends src, dst and the edge weights norm (the same
  33 operations in both), and then three times replace a node table X by the table whose row n is the sum, over the edges
  e with dst[e] = n, of norm[e] · X[src[e]]; the result is the mean of the input table and the three layers, split into
  its first 100,000 and last 50,000 rows. The kernel program pads the 2,000,000 edges to 123 blocks of 16384 rows (index
  0, weight 0), multiplies the gathered rows by the weights in a region per layer, and drops the padded rows again before
  the rows are added up; it pads the four tables to 19 blocks of 8192 rows, forms ((X + L1) + L2 + L3) · 0.25 in a
  last region and drops the padded rows. The reference multiplies the unpadded arrays and divides the same sum by 4.

  The three frames: the two kernel programs' are the generated frame certificates; the reference's is its run with the
  results dropped. The idealization rewrote nothing, so `preserves` is `True`. For `algebraic`: the kernel program's run
  ends with its results at the last level of the fold of buffer contents (Proof/RunResults.lean), which read back
  boundary by boundary is `Stages.result0` / `result1` of the shared prefix values (Proof/Fold.lean, over the regions'
  whole-array functions Proof/RegionMul0–2.lean and Proof/RegionSum.lean); the reference's run ends at its stages
  `val_main_v77` / `val_main_v78` (Proof/RefRun.lean, Proof/RefRead.lean); and the two are one function of the
  arguments (Proof/Bridge.lean): a padded row never reaches a kept row, and on the extended reals a product with 1/4
  is the quotient by 4.
-/
import proofs.«104251_j75531294867819_1_alg».proof.Defs
import proofs.«104251_j75531294867819_1_alg».proof.Proof.Gen.Kernel
import proofs.«104251_j75531294867819_1_alg».proof.Proof.Gen.Kernel.Skeleton
import proofs.«104251_j75531294867819_1_alg».proof.Proof.Gen.Kernel.Launch
import proofs.«104251_j75531294867819_1_alg».proof.Proof.Gen.Kernel.Points
import proofs.«104251_j75531294867819_1_alg».proof.Proof.Gen.Kernel.Frame
import proofs.«104251_j75531294867819_1_alg».proof.Proof.Gen.KernelIdeal
import proofs.«104251_j75531294867819_1_alg».proof.Proof.Gen.KernelIdeal.Skeleton
import proofs.«104251_j75531294867819_1_alg».proof.Proof.Gen.KernelIdeal.Launch
import proofs.«104251_j75531294867819_1_alg».proof.Proof.Gen.KernelIdeal.Points
import proofs.«104251_j75531294867819_1_alg».proof.Proof.Gen.KernelIdeal.Frame
import proofs.«104251_j75531294867819_1_alg».proof.Proof.Gen.ReferenceIdeal
import proofs.«104251_j75531294867819_1_alg».proof.Proof.Gen.Pre_finite_inputs
import proofs.«104251_j75531294867819_1_alg».proof.Proof.RefRun
import proofs.«104251_j75531294867819_1_alg».proof.Proof.RefRead
import proofs.«104251_j75531294867819_1_alg».proof.Proof.RunResults
import proofs.«104251_j75531294867819_1_alg».proof.Proof.Fold
import proofs.«104251_j75531294867819_1_alg».proof.Proof.Bridge
import Idealize.ShloMosaic.Adequacy
import Idealize.ShloMosaic.Init

noncomputable section

namespace Cert.Proof

open Idealize.ShloMosaic Idealize.SL.Sem

/-- The word-level kernel program runs and leaves its arguments: the generated frame certificate. -/
theorem frame_kernel : Cert.frame_Kernel := fun m ρ _ => Cert.Kernel.Gen.frame m ρ

/-- The idealized kernel program runs and leaves its arguments: the generated frame certificate. -/
theorem frame_kernelIdeal : Cert.frame_KernelIdeal := fun m ρ _ => Cert.KernelIdeal.Gen.frame m ρ

/-- The reference runs and leaves its arguments: its run, the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.ValueP.run (F := Ideal) m ρ)

/-- The idealization rewrote no operation. -/
theorem preserves : Cert.preserves_Kernel_KernelIdeal := trivial

/-- From memories that agree on the arguments both programs end with the same two results: the kernel program's fold
    read back to the stages of the shared prefix values, the reference's run at its own stages, and the two stagings
    one function of the arguments over the extended reals. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.Fold.result0_eq (F := Ideal) m ρ c),
       (h c).2.1.trans (Cert.KernelIdeal.Fold.result1_eq (F := Ideal) m ρ c), (h c).2.2.1, (h c).2.2.2⟩)
    (Cert.KernelIdeal.Results.run_results (F := Ideal) m ρ), ?_⟩
  refine (θ_run Cert.ReferenceIdeal.defs _ _).mono (fun r h c =>
      ⟨(h c).1.trans ((Cert.ReferenceIdeal.ReadP.val_main_v77_eq (F := Ideal) m' c).trans ?_),
       (h c).2.1.trans ((Cert.ReferenceIdeal.ReadP.val_main_v78_eq (F := Ideal) m' c).trans ?_), (h c).2.2.1, (h c).2.2.2⟩)
    (Cert.ReferenceIdeal.ValueP.run (F := Ideal) m' ρ')
  · rw [(hagree c).1, (hagree c).2]
    exact (Cert.Bridge.result0_eq _ _).symm
  · rw [(hagree c).1, (hagree c).2]
    exact (Cert.Bridge.result1_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
